-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S50000x3 : Shape := ⟨2, ![50000, 3]⟩
abbrev S2x800000 : Shape := ⟨2, ![2, 800000]⟩
abbrev S800000x1 : Shape := ⟨2, ![800000, 1]⟩
abbrev S50000 : Shape := ⟨1, ![50000]⟩
abbrev S14x64 : Shape := ⟨2, ![14, 64]⟩
abbrev S64 : Shape := ⟨1, ![64]⟩
abbrev S132x64 : Shape := ⟨2, ![132, 64]⟩
abbrev S64x1 : Shape := ⟨2, ![64, 1]⟩
abbrev S1 : Shape := ⟨1, ![1]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x1 : S_.BroadcastsInDim S800000x1 (![] : Fin 0 → Fin S800000x1.rank)
  reducesTo_S800000x1_S_d0_1 : S800000x1.ReducesTo [0, 1] S_
  bcast_S_S14x64 : S_.BroadcastsInDim S14x64 (![] : Fin 0 → Fin S14x64.rank)
  reducesTo_S14x64_S_d0_1 : S14x64.ReducesTo [0, 1] S_
  bcast_S_S64 : S_.BroadcastsInDim S64 (![] : Fin 0 → Fin S64.rank)
  reducesTo_S64_S_d0 : S64.ReducesTo [0] S_
  bcast_S_S132x64 : S_.BroadcastsInDim S132x64 (![] : Fin 0 → Fin S132x64.rank)
  reducesTo_S132x64_S_d0_1 : S132x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S132x64 .f32) (main_arg10 : FVec F S64 .f32) (main_arg11 : FVec F S64x1 .f32) (main_arg12 : FVec F S1 .f32) (main_v33 : IVec S_ 1) : IVec S_ 1 :=
  let main_v34 : FVec F S132x64 .f32 := Host.absf main_arg9
  let main_cst_12 : FVec F S_ .f32 := constant S_ .f32 0x7F800000#32
  let main_v35 : FVec F S132x64 .f32 := broadcastInDim S132x64 ![] bcast_S_S132x64 main_cst_12
  let main_v36 : IVec S132x64 1 := cmpf .olt main_v34 main_v35
  let main_c_13 : IVec S_ 1 := constantI S_ 1 1#1
  let main_v37 : IVec S_ 1 := (fun x v => Host.reduce IntOp.andi x v reducesTo_S132x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S132x64 .f32) (main_arg8 : FVec F S64 .f32) (main_arg9 : FVec F S132x64 .f32) (main_arg10 : FVec F S64 .f32) (main_arg11 : FVec F S64x1 .f32) (main_arg12 : FVec F S1 .f32) (main_v13 : IVec S_ 1) (main_v16 : IVec S14x64 1) : IVec S_ 1 :=
  let main_c_5 : IVec S_ 1 := constantI S_ 1 1#1
  let main_v17 : IVec S_ 1 := (fun x v => Host.reduce IntOp.andi x v reducesTo_S14x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S132x64 .f32 := Host.absf main_arg7
  let main_cst_8 : FVec F S_ .f32 := constant S_ .f32 0x7F800000#32
  let main_v25 : FVec F S132x64 .f32 := broadcastInDim S132x64 ![] bcast_S_S132x64 main_cst_8
  let main_v26 : IVec S132x64 1 := cmpf .olt main_v24 main_v25
  let main_c_9 : IVec S_ 1 := constantI S_ 1 1#1
  let main_v27 : IVec S_ 1 := (fun x v => Host.reduce IntOp.andi x v reducesTo_S132x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x5 .f32) (main_arg1 : FVec F S50000x3 .f32) (main_arg2 : IVec S2x800000 32) (main_arg3 : FVec F S800000x1 .f32) (main_arg4 : IVec S50000 32) (main_arg5 : FVec F S14x64 .f32) (main_arg6 : FVec F S64 .f32) (main_arg7 : FVec F S132x64 .f32) (main_arg8 : FVec F S64 .f32) (main_arg9 : FVec F S132x64 .f32) (main_arg10 : FVec F S64 .f32) (main_arg11 : FVec F S64x1 .f32) (main_arg12 : FVec F S1 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x1 .f32 := Host.absf main_arg3
  let main_cst_2 : FVec F S_ .f32 := constant S_ .f32 0x7F800000#32
  let main_v10 : FVec F S800000x1 .f32 := broadcastInDim S800000x1 ![] bcast_S_S800000x1 main_cst_2
  let main_v11 : IVec S800000x1 1 := cmpf .olt main_v9 main_v10
  let main_c_3 : IVec S_ 1 := constantI S_ 1 1#1
  let main_v12 : IVec S_ 1 := (fun x v => Host.reduce IntOp.andi x v reducesTo_S800000x1_S_d0_1 h_S_) main_v11 main_c_3
  let main_v13 : IVec S_ 1 := andi main_v8 main_v12
  let main_v14 : FVec F S14x64 .f32 := Host.absf main_arg5
  let main_cst_4 : FVec F S_ .f32 := constant S_ .f32 0x7F800000#32
  let main_v15 : FVec F S14x64 .f32 := broadcastInDim S14x64 ![] bcast_S_S14x64 main_cst_4
  let main_v16 : IVec S14x64 1 := cmpf .olt main_v14 main_v15
  fn_part1 (F := F) main_arg6 main_arg7 main_arg8 main_arg9 main_arg10 main_arg11 main_arg12 main_v13 main_v16
-- ==== Kernel.lean ====
abbrev S50000x5 : Shape := ⟨2, ![50000, 5]⟩
abbrev S50000x3 : Shape := ⟨2, ![50000, 3]⟩
abbrev S2x800000 : Shape := ⟨2, ![2, 800000]⟩
abbrev S800000x1 : Shape := ⟨2, ![800000, 1]⟩
abbrev S50000 : Shape := ⟨1, ![50000]⟩
abbrev S14x64 : Shape := ⟨2, ![14, 64]⟩
abbrev S64 : Shape := ⟨1, ![64]⟩
abbrev S132x64 : Shape := ⟨2, ![132, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x5 : Shape := ⟨2, ![800000, 5]⟩
abbrev S800000x3 : Shape := ⟨2, ![800000, 3]⟩
abbrev S5x64 : Shape := ⟨2, ![5, 64]⟩
abbrev S1x64 : Shape := ⟨2, ![1, 64]⟩
abbrev S3x64 : Shape := ⟨2, ![3, 64]⟩
abbrev S800000x64 : Shape := ⟨2, ![800000, 64]⟩
abbrev S3200x5 : Shape := ⟨2, ![3200, 5]⟩
abbrev S3200x3 : Shape := ⟨2, ![3200, 3]⟩
abbrev S3200x1 : Shape := ⟨2, ![3200, 1]⟩
abbrev S3200x64 : Shape := ⟨2, ![3200, 64]⟩
abbrev S50000x64 : Shape := ⟨2, ![50000, 64]⟩
abbrev S64x64 : Shape := ⟨2, ![64, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 181
  | .vmem => 45
  | .smem => 0
  | _ => 0

abbrev hbmTy0_0 (i : Nat) : BufTy := match i % 128 with
  | 0 => ⟨S50000x5, .f32⟩
  | 1 => ⟨S50000x3, .f32⟩
  | 2 => ⟨S2x800000, .i32⟩
  | 3 => ⟨S800000x1, .f32⟩
  | 4 => ⟨S50000, .i32⟩
  | 5 => ⟨S14x64, .f32⟩
  | 6 => ⟨S64, .f32⟩
  | 7 => ⟨S132x64, .f32⟩
  | 8 => ⟨S64, .f32⟩
  | 9 => ⟨S132x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x5, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x5, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x3, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x3, .f32⟩
  | 53 => ⟨S800000x3, .f32⟩
  | 54 => ⟨S5x64, .f32⟩
  | 55 => ⟨S5x64, .f32⟩
  | 56 => ⟨S1x64, .f32⟩
  | 57 => ⟨S3x64, .f32⟩
  | 58 => ⟨S1x64, .f32⟩
  | 59 => ⟨S800000x64, .bf16⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x3, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x3, .f32⟩
  | 101 => ⟨S800000x3, .f32⟩
  | 102 => ⟨S64x64, .f32⟩
  | 103 => ⟨S64x64, .f32⟩
  | 104 => ⟨S1x64, .f32⟩
  | 105 => ⟨S3x64, .f32⟩
  | 106 => ⟨S1x64, .f32⟩
  | 107 => ⟨S800000x64, .bf16⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x5, .f32⟩

abbrev hbmTy0_1 (i : Nat) : BufTy := match i % 128 with
  | 0 => ⟨S800000, .i32⟩
  | 1 => ⟨S800000x1, .i32⟩
  | 2 => ⟨S800000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x3, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x3, .f32⟩
  | 21 => ⟨S800000x3, .f32⟩
  | 22 => ⟨S64x64, .f32⟩
  | 23 => ⟨S64x64, .f32⟩
  | 24 => ⟨S1x64, .f32⟩
  | 25 => ⟨S3x64, .f32⟩
  | 26 => ⟨S1x64, .f32⟩
  | 27 => ⟨S800000x64, .bf16⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S_, .f32⟩
  | 34 => ⟨S512x64, .f32⟩
  | 35 => ⟨S50000x1, .i32⟩
  | 36 => ⟨S512x64, .f32⟩
  | 37 => ⟨S_, .f32⟩
  | 38 => ⟨S50000, .f32⟩
  | 39 => ⟨S_, .f32⟩
  | 40 => ⟨S512, .f32⟩
  | 41 => ⟨S50000x1, .i32⟩
  | 42 => ⟨S512, .f32⟩
  | 43 => ⟨S_, .f32⟩
  | 44 => ⟨S512, .f32⟩
  | 45 => ⟨S512, .f32⟩
  | 46 => ⟨S512x1, .f32⟩
  | 47 => ⟨S512x64, .f32⟩
  | 48 => ⟨S512x64, .f32⟩
  | 49 => ⟨S512x1, .f32⟩
  | 50 => ⟨S1x1, .f32⟩
  | 51 => ⟨S512x1, .f32⟩
  | 52 => ⟨S512x1, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S3200x5, .f32⟩
  | .local _ .vmem, ⟨1, _⟩ => ⟨S3200x5, .f32⟩
  | .local _ .vmem, ⟨2, _⟩ => ⟨S3200x5, .f32⟩
  | .local _ .vmem, ⟨3, _⟩ => ⟨S3200x5, .f32⟩
  | .local _ .vmem, ⟨4, _⟩ => ⟨S3200x3, .f32⟩
  | .local _ .vmem, ⟨5, _⟩ => ⟨S3200x3, .f32⟩
  | .local _ .vmem, ⟨6, _⟩ => ⟨S3200x1, .f32⟩
  | .local _ .vmem, ⟨7, _⟩ => ⟨S3200x1, .f32⟩
  | .local _ .vmem, ⟨8, _⟩ => ⟨S5x64, .f32⟩
  | .local _ .vmem, ⟨9, _⟩ => ⟨S5x64, .f32⟩
  | .local _ .vmem, ⟨10, _⟩ => ⟨S1x64, .f32⟩
  | .local _ .vmem, ⟨11, _⟩ => ⟨S3x64, .f32⟩
  | .local _ .vmem, ⟨12, _⟩ => ⟨S1x64, .f32⟩
  | .local _ .vmem, ⟨13, _⟩ => ⟨S3200x64, .bf16⟩
  | .local _ .vmem, ⟨14, _⟩ => ⟨S3200x64, .bf16⟩
  | .local _ .vmem, ⟨15, _⟩ => ⟨S3200x64, .f32⟩
  | .local _ .vmem, ⟨16, _⟩ => ⟨S3200x64, .f32⟩
  | .local _ .vmem, ⟨17, _⟩ => ⟨S3200x64, .f32⟩
  | .local _ .vmem, ⟨18, _⟩ => ⟨S3200x64, .f32⟩
  | .local _ .vmem, ⟨19, _⟩ => ⟨S3200x3, .f32⟩
  | .local _ .vmem, ⟨20, _⟩ => ⟨S3200x3, .f32⟩
  | .local _ .vmem, ⟨21, _⟩ => ⟨S3200x1, .f32⟩
  | .local _ .vmem, ⟨22, _⟩ => ⟨S3200x1, .f32⟩
  | .local _ .vmem, ⟨23, _⟩ => ⟨S64x64, .f32⟩
  | .local _ .vmem, ⟨24, _⟩ => ⟨S64x64, .f32⟩
  | .local _ .vmem, ⟨25, _⟩ => ⟨S1x64, .f32⟩
  | .local _ .vmem, ⟨26, _⟩ => ⟨S3x64, .f32⟩
  | .local _ .vmem, ⟨27, _⟩ => ⟨S1x64, .f32⟩
  | .local _ .vmem, ⟨28, _⟩ => ⟨S3200x64, .bf16⟩
  | .local _ .vmem, ⟨29, _⟩ => ⟨S3200x64, .bf16⟩
  | .local _ .vmem, ⟨30, _⟩ => ⟨S3200x64, .f32⟩
  | .local _ .vmem, ⟨31, _⟩ => ⟨S3200x64, .f32⟩
  | .local _ .vmem, ⟨32, _⟩ => ⟨S3200x64, .f32⟩
  | .local _ .vmem, ⟨33, _⟩ => ⟨S3200x64, .f32⟩
  | .local _ .vmem, ⟨34, _⟩ => ⟨S3200x3, .f32⟩
  | .local _ .vmem, ⟨35, _⟩ => ⟨S3200x3, .f32⟩
  | .local _ .vmem, ⟨36, _⟩ => ⟨S3200x1, .f32⟩
  | .local _ .vmem, ⟨37, _⟩ => ⟨S3200x1, .f32⟩
  | .local _ .vmem, ⟨38, _⟩ => ⟨S64x64, .f32⟩
  | .local _ .vmem, ⟨39, _⟩ => ⟨S64x64, .f32⟩
  | .local _ .vmem, ⟨40, _⟩ => ⟨S1x64, .f32⟩
  | .local _ .vmem, ⟨41, _⟩ => ⟨S3x64, .f32⟩
  | .local _ .vmem, ⟨42, _⟩ => ⟨S1x64, .f32⟩
  | .local _ .vmem, ⟨43, _⟩ => ⟨S3200x64, .bf16⟩
  | .local _ .vmem, ⟨44, _⟩ => ⟨S3200x64, .bf16⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_v0 : Ref sig .tc := ⟨.hbm, 58, rfl⟩
abbrev main_v37 : Ref sig .tc := ⟨.hbm, 59, rfl⟩
abbrev main_v38 : Ref sig .tc := ⟨.hbm, 60, rfl⟩
abbrev main_cst : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call1_v0 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_16 : Ref sig .tc := ⟨.hbm, 113, rfl⟩
abbrev main_v80 : Ref sig .tc := ⟨.hbm, 114, rfl⟩
abbrev main_v81 : Ref sig .tc := ⟨.hbm, 115, rfl⟩
abbrev main_c_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_18 : Ref sig .tc := ⟨.hbm, 122, rfl⟩
abbrev main_v87 : Ref sig .tc := ⟨.hbm, 123, rfl⟩
abbrev main_v88 : Ref sig .tc := ⟨.hbm, 124, rfl⟩
abbrev main_c_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_20 : Ref sig .tc := ⟨.hbm, 131, rfl⟩
abbrev main_v94 : Ref sig .tc := ⟨.hbm, 132, rfl⟩
abbrev main_v95 : Ref sig .tc := ⟨.hbm, 133, rfl⟩
abbrev main_c_21 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_22 : Ref sig .tc := ⟨.hbm, 140, rfl⟩
abbrev main_v101 : Ref sig .tc := ⟨.hbm, 141, rfl⟩
abbrev main_v102 : Ref sig .tc := ⟨.hbm, 142, rfl⟩
abbrev main_c_23 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call2_v0 : Ref sig .tc := ⟨.hbm, 154, rfl⟩
abbrev main_v113 : Ref sig .tc := ⟨.hbm, 155, rfl⟩
abbrev main_v114 : Ref sig .tc := ⟨.hbm, 156, rfl⟩
abbrev main_cst_24 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_25 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_26 : Ref sig .tc := ⟨.hbm, 165, rfl⟩
abbrev main_v121 : Ref sig .tc := ⟨.hbm, 166, rfl⟩
abbrev main_cst_27 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_28 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg9_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem9_0 : DmaSem sig := 43
abbrev cc2_sem9_1 : DmaSem sig := 44

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3200x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S3200x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3200x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S3200x64 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S14x64_S5x64_0_0 : S14x64.Slices ![0, 0] S5x64
  slices_S14x64_S5x64_5_0 : S14x64.Slices ![5, 0] S5x64
  slices_S14x64_S1x64_10_0 : S14x64.Slices ![10, 0] S1x64
  slices_S14x64_S3x64_11_0 : S14x64.Slices ![11, 0] S3x64
  shapeCasts_S64_S1x64 : S64.ShapeCasts S1x64
  inb_S3200x5_S3200x5_0_0 : ∀ a, (![0, 0] : Fin 2 → Nat) a + S3200x5.size a ≤ S3200x5.size a
  h_S3200x5 : 0 < S3200x5.numel
  shapeCasts_S3200x5_S3200x5 : S3200x5.ShapeCasts S3200x5
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  inb_S3200x1_S3200x1_0_0 : ∀ a, (![0, 0] : Fin 2 → Nat) a + S3200x1.size a ≤ S3200x1.size a
  h_S3200x1 : 0 < S3200x1.numel
  inb_S5x64_S5x64_0_0 : ∀ a, (![0, 0] : Fin 2 → Nat) a + S5x64.size a ≤ S5x64.size a
  h_S5x64 : 0 < S5x64.numel
  shapeCasts_S5x64_S5x64 : S5x64.ShapeCasts S5x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S64 : S1x64.ShapeCasts S64
  broadcasts_S3200x1_S3200x64 : S3200x1.Broadcasts S3200x64
  broadcasts_S1x64_S3200x64 : S1x64.Broadcasts S3200x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  bitsLt_bf16_f32 : FTy.bits .bf16 < FTy.bits .f32
  inb_S3200x64_S3200x64_0_0 : ∀ a, (![0, 0] : Fin 2 → Nat) a + S3200x64.size a ≤ S3200x64.size a
  h_S3200x64 : 0 < S3200x64.numel
  packedbf16_S3200x64_S3200x64_0_0 : (Rect.unit (s := S3200x64) ![0, 0] S3200x64.size inb_S3200x64_S3200x64_0_0).PackedRows (EltTy.packing .bf16)
  bcast_S_S50000x64 : S_.BroadcastsInDim S50000x64 (![] : Fin 0 → Fin S50000x64.rank)
  slices_S132x64_S64x64_0_0 : S132x64.Slices ![0, 0] S64x64
  slices_S132x64_S64x64_64_0 : S132x64.Slices ![64, 0] S64x64
  slices_S132x64_S1x64_128_0 : S132x64.Slices ![128, 0] S1x64
  slices_S132x64_S3x64_129_0 : S132x64.Slices ![129, 0] S3x64
  shapeCasts_S3200x64_S3200x64 : S3200x64.ShapeCasts S3200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x5_S800000x1_S800000x5_1_0_n_n_0_1_15_wf : GatherDims.WF S50000x5 S800000x1 S800000x5 [1] [0] [] [0] [] 1 ![1, 5]
  gather_S50000x3_S800000x1_S800000x3_1_0_n_n_0_1_13_wf : GatherDims.WF S50000x3 S800000x1 S800000x3 [1] [0] [] [0] [] 1 ![1, 3]
  dot_S3200x5_S5x64_S3200x64_1_0_0_1_n_n_wf : DotDims.WF S3200x5 S5x64 S3200x64 [1] [0] [0] [1] [] []
  dot_S3200x3_S3x64_S3200x64_1_0_0_1_n_n_wf : DotDims.WF S3200x3 S3x64 S3200x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S3200x64_S64x64_S3200x64_1_0_0_1_n_n_wf : DotDims.WF S3200x64 S64x64 S3200x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x5.size a ≤ S800000x5.size a
  hwx0_0 : ∀ i : grid0.Coords, EltTy.bits .f32 = 32 ∨ (Rect.block (s := S800000x5) S3200x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x5.size a ≤ S800000x5.size a
  hwx0_1 : ∀ i : grid0.Coords, EltTy.bits .f32 = 32 ∨ (Rect.block (s := S800000x5) S3200x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S800000x3.size a
  hwx0_2 : ∀ i : grid0.Coords, EltTy.bits .f32 = 32 ∨ (Rect.block (s := S800000x3) S3200x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x1.size a ≤ S800000x1.size a
  hwx0_3 : ∀ i : grid0.Coords, EltTy.bits .f32 = 32 ∨ (Rect.block (s := S800000x1) S3200x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x64.size a ≤ S5x64.size a
  hwx0_4 : ∀ i : grid0.Coords, EltTy.bits .f32 = 32 ∨ (Rect.block (s := S5x64) S5x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64.size a ≤ S5x64.size a
  hwx0_5 : ∀ i : grid0.Coords, EltTy.bits .f32 = 32 ∨ (Rect.block (s := S5x64) S5x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64.size a ≤ S3x64.size a
  hwx0_7 : ∀ i : grid0.Coords, EltTy.bits .f32 = 32 ∨ (Rect.block (s := S3x64) S3x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x64.size a ≤ S800000x64.size a
  hwx0_9 : ∀ i : grid0.Coords, EltTy.bits .bf16 = 32 ∨ (Rect.block (s := S800000x64) S3200x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S800000x64.size a
  hwx1_0 : ∀ i : grid1.Coords, EltTy.bits .f32 = 32 ∨ (Rect.block (s := S800000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .f32 = 32 ∨ (Rect.block (s := S800000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x3.size a ≤ S800000x3.size a
  hwx1_2 : ∀ i : grid1.Coords, EltTy.bits .f32 = 32 ∨ (Rect.block (s := S800000x3) S3200x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x1.size a ≤ S800000x1.size a
  hwx1_3 : ∀ i : grid1.Coords, EltTy.bits .f32 = 32 ∨ (Rect.block (s := S800000x1) S3200x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x64.size a ≤ S3x64.size a
  hwx1_7 : ∀ i : grid1.Coords, EltTy.bits .f32 = 32 ∨ (Rect.block (s := S3x64) S3x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S3200x64.size a ≤ S800000x64.size a
  hwx1_9 : ∀ i : grid1.Coords, EltTy.bits .bf16 = 32 ∨ (Rect.block (s := S800000x64) S3200x64.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x64.size a ≤ S800000x64.size a
  hwx2_0 : ∀ i : grid2.Coords, EltTy.bits .f32 = 32 ∨ (Rect.block (s := S800000x64) S3200x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x64.size a ≤ S800000x64.size a
  hwx2_1 : ∀ i : grid2.Coords, EltTy.bits .f32 = 32 ∨ (Rect.block (s := S800000x64) S3200x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x3.size a ≤ S800000x3.size a
  hwx2_2 : ∀ i : grid2.Coords, EltTy.bits .f32 = 32 ∨ (Rect.block (s := S800000x3) S3200x3.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3200x1.size a ≤ S800000x1.size a
  hwx2_3 : ∀ i : grid2.Coords, EltTy.bits .f32 = 32 ∨ (Rect.block (s := S800000x1) S3200x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x64.size a ≤ S3x64.size a
  hwx2_7 : ∀ i : grid2.Coords, EltTy.bits .f32 = 32 ∨ (Rect.block (s := S3x64) S3x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S3200x64.size a ≤ S800000x64.size a
  hwx2_9 : ∀ i : grid2.Coords, EltTy.bits .bf16 = 32 ∨ (Rect.block (s := S800000x64) S3200x64.size (cc2_transform_9 i) (hinb2_9 i)).WholeWords (EltTy.packing .bf16)

variable [Facts₀]

def gather_S50000x5_S800000x1_S800000x5_1_0_n_n_0_1_15 : GatherDims S50000x5 S800000x1 S800000x5 where
  offsetDims := [1]
  collapsedSliceDims := [0]
  operandBatchingDims := []
  startIndicesBatchingDims := []
  startIndexMap := [0]
  indexVectorDim := 1
  sliceSizes := ![1, 5]
  wf := gather_S50000x5_S800000x1_S800000x5_1_0_n_n_0_1_15_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x5_S5x64_S3200x64_1_0_0_1_n_n : DotDims S3200x5 S5x64 S3200x64 where
  lhsContracting := [1]
  rhsContracting := [0]
  lhsNonContracting := [0]
  rhsNonContracting := [1]
  lhsBatch := []
  rhsBatch := []
  wf := dot_S3200x5_S5x64_S3200x64_1_0_0_1_n_n_wf
def dot_S3200x3_S3x64_S3200x64_1_0_0_1_n_n : DotDims S3200x3 S3x64 S3200x64 where
  lhsContracting := [1]
  rhsContracting := [0]
  lhsNonContracting := [0]
  rhsNonContracting := [1]
  lhsBatch := []
  rhsBatch := []
  wf := dot_S3200x3_S3x64_S3200x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v10) S3200x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S5x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S3x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v0) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S3200x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v48) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v70) S3200x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S3200x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v71) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S3x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call1_v0) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v75) S3200x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v86) S3200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S3200x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v108) S3200x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S3200x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v109) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v110) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v111) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v112) S3x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call2_v0) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v113) S3200x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x5 : Shape := ⟨2, ![50000, 5]⟩
abbrev S50000x3 : Shape := ⟨2, ![50000, 3]⟩
abbrev S2x800000 : Shape := ⟨2, ![2, 800000]⟩
abbrev S800000x1 : Shape := ⟨2, ![800000, 1]⟩
abbrev S50000 : Shape := ⟨1, ![50000]⟩
abbrev S14x64 : Shape := ⟨2, ![14, 64]⟩
abbrev S64 : Shape := ⟨1, ![64]⟩
abbrev S132x64 : Shape := ⟨2, ![132, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x5 : Shape := ⟨2, ![800000, 5]⟩
abbrev S800000x3 : Shape := ⟨2, ![800000, 3]⟩
abbrev S800000x14 : Shape := ⟨2, ![800000, 14]⟩
abbrev S800000x64 : Shape := ⟨2, ![800000, 64]⟩
abbrev S1x64 : Shape := ⟨2, ![1, 64]⟩
abbrev S50000x64 : Shape := ⟨2, ![50000, 64]⟩
abbrev S800000x132 : Shape := ⟨2, ![800000, 132]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S50000x5, .f32⟩
  | 1 => ⟨S50000x3, .f32⟩
  | 2 => ⟨S2x800000, .i32⟩
  | 3 => ⟨S800000x1, .f32⟩
  | 4 => ⟨S50000, .i32⟩
  | 5 => ⟨S14x64, .f32⟩
  | 6 => ⟨S64, .f32⟩
  | 7 => ⟨S132x64, .f32⟩
  | 8 => ⟨S64, .f32⟩
  | 9 => ⟨S132x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x5, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x5, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x3, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x3, .f32⟩
  | 53 => ⟨S800000x3, .f32⟩
  | 54 => ⟨S800000x14, .f32⟩
  | 55 => ⟨S800000x64, .f32⟩
  | 56 => ⟨S1x64, .f32⟩
  | 57 => ⟨S800000x64, .f32⟩
  | 58 => ⟨S800000x64, .f32⟩
  | 59 => ⟨S800000x64, .f32⟩
  | 60 => ⟨S800000x64, .f32⟩
  | 61 => ⟨S_, .f32⟩
  | 62 => ⟨S800000x64, .f32⟩
  | 63 => ⟨S800000x64, .f32⟩
  | 64 => ⟨S_, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x3, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x3, .f32⟩
  | 107 => ⟨S800000x3, .f32⟩
  | 108 => ⟨S800000x132, .f32⟩
  | 109 => ⟨S800000x64, .f32⟩
  | 110 => ⟨S1x64, .f32⟩
  | 111 => ⟨S800000x64, .f32⟩
  | 112 => ⟨S800000x64, .f32⟩
  | 113 => ⟨S800000x64, .f32⟩
  | 114 => ⟨S800000x64, .f32⟩
  | 115 => ⟨S_, .f32⟩
  | 116 => ⟨S800000x64, .f32⟩
  | 117 => ⟨S800000x64, .f32⟩
  | 118 => ⟨S_, .f32⟩
  | 119 => ⟨S800000x64, .f32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S_, .i32⟩
  | 126 => ⟨S800000, .i32⟩
  | 127 => ⟨S800000, .i1⟩
  | _ => ⟨S50000x5, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x3, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x3, .f32⟩
  | 33 => ⟨S800000x3, .f32⟩
  | 34 => ⟨S800000x132, .f32⟩
  | 35 => ⟨S800000x64, .f32⟩
  | 36 => ⟨S1x64, .f32⟩
  | 37 => ⟨S800000x64, .f32⟩
  | 38 => ⟨S800000x64, .f32⟩
  | 39 => ⟨S800000x64, .f32⟩
  | 40 => ⟨S800000x64, .f32⟩
  | 41 => ⟨S_, .f32⟩
  | 42 => ⟨S800000x64, .f32⟩
  | 43 => ⟨S800000x64, .f32⟩
  | 44 => ⟨S_, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S_, .f32⟩
  | 52 => ⟨S512x64, .f32⟩
  | 53 => ⟨S50000x1, .i32⟩
  | 54 => ⟨S512x64, .f32⟩
  | 55 => ⟨S_, .f32⟩
  | 56 => ⟨S50000, .f32⟩
  | 57 => ⟨S_, .f32⟩
  | 58 => ⟨S512, .f32⟩
  | 59 => ⟨S50000x1, .i32⟩
  | 60 => ⟨S512, .f32⟩
  | 61 => ⟨S_, .f32⟩
  | 62 => ⟨S512, .f32⟩
  | 63 => ⟨S512, .f32⟩
  | 64 => ⟨S512x1, .f32⟩
  | 65 => ⟨S512x64, .f32⟩
  | 66 => ⟨S512x64, .f32⟩
  | 67 => ⟨S512x1, .f32⟩
  | 68 => ⟨S1x1, .f32⟩
  | 69 => ⟨S512x1, .f32⟩
  | 70 => ⟨S512x1, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_20 : Ref sig .tc := ⟨.hbm, 125, rfl⟩
abbrev main_v90 : Ref sig .tc := ⟨.hbm, 126, rfl⟩
abbrev main_v91 : Ref sig .tc := ⟨.hbm, 127, rfl⟩
abbrev main_c_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_22 : Ref sig .tc := ⟨.hbm, 134, rfl⟩
abbrev main_v97 : Ref sig .tc := ⟨.hbm, 135, rfl⟩
abbrev main_v98 : Ref sig .tc := ⟨.hbm, 136, rfl⟩
abbrev main_c_23 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_24 : Ref sig .tc := ⟨.hbm, 143, rfl⟩
abbrev main_v104 : Ref sig .tc := ⟨.hbm, 144, rfl⟩
abbrev main_v105 : Ref sig .tc := ⟨.hbm, 145, rfl⟩
abbrev main_c_25 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_26 : Ref sig .tc := ⟨.hbm, 152, rfl⟩
abbrev main_v111 : Ref sig .tc := ⟨.hbm, 153, rfl⟩
abbrev main_v112 : Ref sig .tc := ⟨.hbm, 154, rfl⟩
abbrev main_c_27 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_28 : Ref sig .tc := ⟨.hbm, 169, rfl⟩
abbrev main_v126 : Ref sig .tc := ⟨.hbm, 170, rfl⟩
abbrev main_v127 : Ref sig .tc := ⟨.hbm, 171, rfl⟩
abbrev main_cst_29 : Ref sig .tc := ⟨.hbm, 172, rfl⟩
abbrev main_v128 : Ref sig .tc := ⟨.hbm, 173, rfl⟩
abbrev main_v129 : Ref sig .tc := ⟨.hbm, 174, rfl⟩
abbrev main_cst_30 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_31 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_32 : Ref sig .tc := ⟨.hbm, 183, rfl⟩
abbrev main_v136 : Ref sig .tc := ⟨.hbm, 184, rfl⟩
abbrev main_cst_33 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_34 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x5_S800000x5_S800000x1_S800000x3_S800000x14_d1 : Shape.Concatenates [S800000x5, S800000x5, S800000x1, S800000x3] S800000x14 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S800000x64_S800000x64_S800000x1_S800000x3_S800000x132_d1 : Shape.Concatenates [S800000x64, S800000x64, S800000x1, S800000x3] S800000x132 1
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x5_S800000x1_S800000x5_1_0_n_n_0_1_15_wf : GatherDims.WF S50000x5 S800000x1 S800000x5 [1] [0] [] [0] [] 1 ![1, 5]
  gather_S50000x3_S800000x1_S800000x3_1_0_n_n_0_1_13_wf : GatherDims.WF S50000x3 S800000x1 S800000x3 [1] [0] [] [0] [] 1 ![1, 3]
  dot_S800000x14_S14x64_S800000x64_1_0_0_1_n_n_wf : DotDims.WF S800000x14 S14x64 S800000x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S800000x132_S132x64_S800000x64_1_0_0_1_n_n_wf : DotDims.WF S800000x132 S132x64 S800000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x1_S512x1_1_0_0_1_n_n_wf : DotDims.WF S512x64 S64x1 S512x1 [1] [0] [0] [1] [] []

variable [Facts₀]

def gather_S50000x5_S800000x1_S800000x5_1_0_n_n_0_1_15 : GatherDims S50000x5 S800000x1 S800000x5 where
  offsetDims := [1]
  collapsedSliceDims := [0]
  operandBatchingDims := []
  startIndicesBatchingDims := []
  startIndexMap := [0]
  indexVectorDim := 1
  sliceSizes := ![1, 5]
  wf := gather_S50000x5_S800000x1_S800000x5_1_0_n_n_0_1_15_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x14_S14x64_S800000x64_1_0_0_1_n_n : DotDims S800000x14 S14x64 S800000x64 where
  lhsContracting := [1]
  rhsContracting := [0]
  lhsNonContracting := [0]
  rhsNonContracting := [1]
  lhsBatch := []
  rhsBatch := []
  wf := dot_S800000x14_S14x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x132_S132x64_S800000x64_1_0_0_1_n_n : DotDims S800000x132 S132x64 S800000x64 where
  lhsContracting := [1]
  rhsContracting := [0]
  lhsNonContracting := [0]
  rhsNonContracting := [1]
  lhsBatch := []
  rhsBatch := []
  wf := dot_S800000x132_S132x64_S800000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.Spec.lean ====
import proofs.«425315_j42391327212259_4_alg».proof.KernelIdeal
import proofs.«425315_j42391327212259_4_alg».proof.ReferenceIdeal
import Idealize.ShloMosaic.Lib.ValueIdx
import Idealize.ShloMosaic.PureOps.Ideal.Laws

/-!
# What both programs compute, as whole-array functions

A graph network of three message-passing layers and a mean pool. With `E = 800000` edges over
`N = 50000` nodes, a layer takes node features `h` (5 wide at first, then 64 wide), coordinates `p`,
the edge list, one attribute per edge, a weight matrix `W` of `2·kin + 1 + 3` rows and a bias, and
gives every edge `e = (s, t)` and channel `j` the score

  `σ( Σₖ h[s,k]·W[k,j] + Σₖ h[t,k]·W[kin+k,j] + a[e]·W[2kin,j] + Σₖ (p[s,k] − p[t,k])·W[2kin+1+k,j] + b[j] )`,

then sums the scores of the edges that END at each node. After three layers the node rows are
averaged per graph and multiplied into a last column of weights.

The two programs differ only in how a layer's score is spelt: one evaluates the four groups of the
sum separately, on blocks of 3200 edges (`score5`, `score64`: the closed form of what those blocks
hold together); the other lays the four operands side by side and contracts once with all of `W`
(`catScore5`, `catScore64`). Everything around the score — the row gathers, the sum into the target
nodes, the pool — is one text, defined once here.
-/

noncomputable section

namespace Cert.Spec

open Idealize.ShloMosaic Idealize.ShloMosaic.ValueIdx
open Cert.KernelIdeal Cert.KernelIdeal.Facts₀

variable {F : FTy → Type} [FloatOps F] [hK : Cert.KernelIdeal.Facts] [hR : Cert.ReferenceIdeal.Facts]

/-! ## The parts both programs share -/

/-- The start node of every edge: row 0 of the edge list. -/
def src (ei : IVec S2x800000 32) : IVec S800000 32 :=
  shapeCast S800000 (extractStridedSlice S1x800000 ![0, 0] ei slices_S2x800000_S1x800000_0_0) shapeCasts_S1x800000_S800000

/-- The end node of every edge: row 1 of the edge list. -/
def dst (ei : IVec S2x800000 32) : IVec S800000 32 :=
  shapeCast S800000 (extractStridedSlice S1x800000 ![1, 0] ei slices_S2x800000_S1x800000_1_0) shapeCasts_S1x800000_S800000

/-- A node number as a row index: a negative number counts from the end (`v + 50000`), one column wide. -/
def nodeIx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Row `v e` of a 5-wide node table, for every edge `e`. -/
def rows5 (x : FVec F S50000x5 .f32) (v : IVec S800000 32) : FVec F S800000x5 .f32 :=
  Host.gather gather_S50000x5_S800000x1_S800000x5_1_0_n_n_0_1_15 x (nodeIx v)

/-- Row `v e` of the coordinate table, for every edge `e`. -/
def rows3 (p : FVec F S50000x3 .f32) (v : IVec S800000 32) : FVec F S800000x3 .f32 :=
  Host.gather gather_S50000x3_S800000x1_S800000x3_1_0_n_n_0_1_13 p (nodeIx v)

/-- Row `v e` of a 64-wide node table, for every edge `e`. -/
def rows64 (h : FVec F S50000x64 .f32) (v : IVec S800000 32) : FVec F S800000x64 .f32 :=
  Host.gather gather_S50000x64_S800000x1_S800000x64_1_0_n_n_0_1_164 h (nodeIx v)

/-- The coordinate difference start − end of every edge. -/
def pdiff (p : FVec F S50000x3 .f32) (ei : IVec S2x800000 32) : FVec F S800000x3 .f32 :=
  subf (rows3 p (src ei)) (rows3 p (dst ei))

/-- Every node's sum of the scores of the edges ending there. -/
def segsum (ei : IVec S2x800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dst ei)) u

/-- The mean of the node rows of each graph (a graph with no node divides by 1). -/
def pool (batch : IVec S50000 32) (h : FVec F S50000x64 .f32) : FVec F S512x64 .f32 :=
  Host.divf
    (Host.scatterAdd scatter_S512x64_S50000x1_S50000x64_1_0_0_1
      (broadcastInDim S512x64 ![] bcast_S_S512x64 (constant S_ .f32 0x00000000#32))
      (broadcastInDim S50000x1 ![0] bcast_S50000_S50000x1_0 batch) h)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 batch)
            (broadcastInDim S50000 ![] bcast_S_S50000 (constant S_ .f32 0x3F800000#32)))
          (broadcastInDim S512 ![] bcast_S_S512 (constant S_ .f32 0x3F800000#32)))))

/-- The prediction: the pooled rows times the last weight column, plus its bias. -/
def predict (g : FVec F S512x64 .f32) (Wp : FVec F S64x1 .f32) (bp : FVec F S1 .f32) : FVec F S512x1 .f32 :=
  addf (Host.dotGeneral dot_S512x64_S64x1_S512x1_1_0_0_1_n_n none g Wp)
    (broadcastInDim S512x1 ![0, 1] bcast_S1x1_S512x1_0_1 (broadcastInDim S1x1 ![1] bcast_S1_S1x1_1 bp))

/-! ## A layer's score, evaluated group by group (the closed form of the blocks) -/

/-- The score of edge `i 0` in channel `i 1` from 5-wide endpoint rows, the four groups of the sum added in the
    order start rows, end rows, attribute, coordinates, bias. -/
def score5 (hs hd : FVec Ideal S800000x5 .f32) (pd : FVec Ideal S800000x3 .f32) (ea : FVec Ideal S800000x1 .f32)
    (wa wb : FVec Ideal S5x64 .f32) (wc : FVec Ideal S1x64 .f32) (wd : FVec Ideal S3x64 .f32) (b : FVec Ideal S1x64 .f32) :
    FVec Ideal S800000x64 .bf16 := fun i =>
  Ideal.logistic
    (((((∑ k : Fin 5, hs (ix2 (i 0) k) * wa (ix2 k (i 1))) + (∑ k : Fin 5, hd (ix2 (i 0) k) * wb (ix2 k (i 1))))
        + ea (ix2 (i 0) (0 : Fin 1)) * wc (ix2 (0 : Fin 1) (i 1)))
      + (∑ k : Fin 3, pd (ix2 (i 0) k) * wd (ix2 k (i 1))))
    + b (ix2 (0 : Fin 1) (i 1)))

/-- The same from 64-wide endpoint rows. -/
def score64 (hs hd : FVec Ideal S800000x64 .f32) (pd : FVec Ideal S800000x3 .f32) (ea : FVec Ideal S800000x1 .f32)
    (wa wb : FVec Ideal S64x64 .f32) (wc : FVec Ideal S1x64 .f32) (wd : FVec Ideal S3x64 .f32) (b : FVec Ideal S1x64 .f32) :
    FVec Ideal S800000x64 .bf16 := fun i =>
  Ideal.logistic
    (((((∑ k : Fin 64, hs (ix2 (i 0) k) * wa (ix2 k (i 1))) + (∑ k : Fin 64, hd (ix2 (i 0) k) * wb (ix2 k (i 1))))
        + ea (ix2 (i 0) (0 : Fin 1)) * wc (ix2 (0 : Fin 1) (i 1)))
      + (∑ k : Fin 3, pd (ix2 (i 0) k) * wd (ix2 k (i 1))))
    + b (ix2 (0 : Fin 1) (i 1)))

/-- The first layer as the blocked program spells it: the weight matrix cut into its four groups of rows, the bias as
    one row, the score read back at full width. -/
def layerK5 (x : FVec Ideal S50000x5 .f32) (p : FVec Ideal S50000x3 .f32) (ei : IVec S2x800000 32)
    (ea : FVec Ideal S800000x1 .f32) (W : FVec Ideal S14x64 .f32) (b : FVec Ideal S64 .f32) : FVec Ideal S800000x64 .f32 :=
  extf .f32 (score5 (rows5 x (src ei)) (rows5 x (dst ei)) (pdiff p ei) ea
    (extractStridedSlice S5x64 ![0, 0] W slices_S14x64_S5x64_0_0) (extractStridedSlice S5x64 ![5, 0] W slices_S14x64_S5x64_5_0)
    (extractStridedSlice S1x64 ![10, 0] W slices_S14x64_S1x64_10_0) (extractStridedSlice S3x64 ![11, 0] W slices_S14x64_S3x64_11_0)
    (shapeCast S1x64 b shapeCasts_S64_S1x64)) bitsLt_bf16_f32

/-- A later layer as the blocked program spells it. -/
def layerK64 (h : FVec Ideal S50000x64 .f32) (p : FVec Ideal S50000x3 .f32) (ei : IVec S2x800000 32)
    (ea : FVec Ideal S800000x1 .f32) (W : FVec Ideal S132x64 .f32) (b : FVec Ideal S64 .f32) : FVec Ideal S800000x64 .f32 :=
  extf .f32 (score64 (rows64 h (src ei)) (rows64 h (dst ei)) (pdiff p ei) ea
    (extractStridedSlice S64x64 ![0, 0] W slices_S132x64_S64x64_0_0) (extractStridedSlice S64x64 ![64, 0] W slices_S132x64_S64x64_64_0)
    (extractStridedSlice S1x64 ![128, 0] W slices_S132x64_S1x64_128_0) (extractStridedSlice S3x64 ![129, 0] W slices_S132x64_S3x64_129_0)
    (shapeCast S1x64 b shapeCasts_S64_S1x64)) bitsLt_bf16_f32

/-! ## A layer's score, the operands side by side and ONE contraction -/

open Cert.ReferenceIdeal.Facts₀ in
/-- `1 / (1 + e^(−z))` spelt in the host's four operations. -/
def hostSigmoid (z : FVec F S800000x64 .f32) : FVec F S800000x64 .f32 :=
  Host.divf (broadcastInDim S800000x64 ![] Cert.ReferenceIdeal.Facts₀.bcast_S_S800000x64 (constant S_ .f32 0x3F800000#32))
    (addf (broadcastInDim S800000x64 ![] Cert.ReferenceIdeal.Facts₀.bcast_S_S800000x64 (constant S_ .f32 0x3F800000#32)) (Host.exp (Host.negf z)))

/-- The first layer with the four operands laid side by side (14 columns) and contracted once with all of `W`. -/
def layerR5 (x : FVec F S50000x5 .f32) (p : FVec F S50000x3 .f32) (ei : IVec S2x800000 32)
    (ea : FVec F S800000x1 .f32) (W : FVec F S14x64 .f32) (b : FVec F S64 .f32) : FVec F S800000x64 .f32 :=
  hostSigmoid (addf
    (Host.dotGeneral Cert.ReferenceIdeal.dot_S800000x14_S14x64_S800000x64_1_0_0_1_n_n none
      (concatenate Cert.ReferenceIdeal.S800000x14 1 [⟨S800000x5, rows5 x (src ei)⟩, ⟨S800000x5, rows5 x (dst ei)⟩, ⟨S800000x1, ea⟩, ⟨S800000x3, pdiff p ei⟩]
        Cert.ReferenceIdeal.Facts₀.concatenates_S800000x5_S800000x5_S800000x1_S800000x3_S800000x14_d1) W)
    (broadcastInDim S800000x64 ![0, 1] Cert.ReferenceIdeal.Facts₀.bcast_S1x64_S800000x64_0_1
      (broadcastInDim S1x64 ![1] Cert.ReferenceIdeal.Facts₀.bcast_S64_S1x64_1 b)))

/-- A later layer the same way (132 columns). -/
def layerR64 (h : FVec F S50000x64 .f32) (p : FVec F S50000x3 .f32) (ei : IVec S2x800000 32)
    (ea : FVec F S800000x1 .f32) (W : FVec F S132x64 .f32) (b : FVec F S64 .f32) : FVec F S800000x64 .f32 :=
  hostSigmoid (addf
    (Host.dotGeneral Cert.ReferenceIdeal.dot_S800000x132_S132x64_S800000x64_1_0_0_1_n_n none
      (concatenate Cert.ReferenceIdeal.S800000x132 1 [⟨S800000x64, rows64 h (src ei)⟩, ⟨S800000x64, rows64 h (dst ei)⟩, ⟨S800000x1, ea⟩, ⟨S800000x3, pdiff p ei⟩]
        Cert.ReferenceIdeal.Facts₀.concatenates_S800000x64_S800000x64_S800000x1_S800000x3_S800000x132_d1) W)
    (broadcastInDim S800000x64 ![0, 1] Cert.ReferenceIdeal.Facts₀.bcast_S1x64_S800000x64_0_1
      (broadcastInDim S1x64 ![1] Cert.ReferenceIdeal.Facts₀.bcast_S64_S1x64_1 b)))

/-! ## The two whole programs -/

/-- The node rows after three layers, each layer's score spelt group by group. -/
def nodesK (x : FVec Ideal S50000x5 .f32) (p : FVec Ideal S50000x3 .f32) (ei : IVec S2x800000 32) (ea : FVec Ideal S800000x1 .f32)
    (W0 : FVec Ideal S14x64 .f32) (b0 : FVec Ideal S64 .f32) (W1 : FVec Ideal S132x64 .f32) (b1 : FVec Ideal S64 .f32)
    (W2 : FVec Ideal S132x64 .f32) (b2 : FVec Ideal S64 .f32) : FVec Ideal S50000x64 .f32 :=
  segsum ei (layerK64 (segsum ei (layerK64 (segsum ei (layerK5 x p ei ea W0 b0)) p ei ea W1 b1)) p ei ea W2 b2)

/-- The node rows after three layers, each layer's score by one contraction. -/
def nodesR (x : FVec F S50000x5 .f32) (p : FVec F S50000x3 .f32) (ei : IVec S2x800000 32) (ea : FVec F S800000x1 .f32)
    (W0 : FVec F S14x64 .f32) (b0 : FVec F S64 .f32) (W1 : FVec F S132x64 .f32) (b1 : FVec F S64 .f32)
    (W2 : FVec F S132x64 .f32) (b2 : FVec F S64 .f32) : FVec F S50000x64 .f32 :=
  segsum ei (layerR64 (segsum ei (layerR64 (segsum ei (layerR5 x p ei ea W0 b0)) p ei ea W1 b1)) p ei ea W2 b2)

end Cert.Spec

end
-- ==== Proof.RegionClaims.lean ====
import proofs.«425315_j42391327212259_4_alg».proof.Proof.Spec
import proofs.«425315_j42391327212259_4_alg».proof.Proof.Gen.KernelIdeal.Frame

/-!
# The three regions' value facts, as statements

Each says: whatever the buffers hold when the region is entered, its output array ends at the closed form of its 250
blocks — the score of every edge and channel from the nine arrays the region reads.
-/

set_option maxRecDepth 16384

noncomputable section

namespace Cert.KernelIdeal

open Cert.KernelIdeal.Gen
open Idealize.ShloMosaic Idealize.ShloMosaic.TcCoe Idealize.SL.Sem

/-- Region 0 (5-wide endpoint rows). -/
def Arr0 : Prop := ∀ (V : (c : Dev nD) → (b : Ref sig .tc) → Buf (Elt Ideal) ((c : Thread nD τ).loc b)) (c : Dev nD),
    (dat0 (F := Ideal) V c).arrAt 9 cfg0.N
      = Cert.Spec.score5 (V c main_v10) (V c main_v17) (V c main_v32) (V c main_arg3) (V c main_v33) (V c main_v34) (V c main_v35) (V c main_v36) (V c main_call0_v0)

/-- Region 1 (64-wide endpoint rows). -/
def Arr1 : Prop := ∀ (V : (c : Dev nD) → (b : Ref sig .tc) → Buf (Elt Ideal) ((c : Thread nD τ).loc b)) (c : Dev nD),
    (dat1 (F := Ideal) V c).arrAt 9 cfg1.N
      = Cert.Spec.score64 (V c main_v48) (V c main_v55) (V c main_v70) (V c main_arg3) (V c main_v71) (V c main_v72) (V c main_v73) (V c main_v74) (V c main_call1_v0)

/-- Region 2 (64-wide endpoint rows). -/
def Arr2 : Prop := ∀ (V : (c : Dev nD) → (b : Ref sig .tc) → Buf (Elt Ideal) ((c : Thread nD τ).loc b)) (c : Dev nD),
    (dat2 (F := Ideal) V c).arrAt 9 cfg2.N
      = Cert.Spec.score64 (V c main_v86) (V c main_v93) (V c main_v108) (V c main_arg3) (V c main_v109) (V c main_v110) (V c main_v111) (V c main_v112) (V c main_call2_v0)

end Cert.KernelIdeal

end
-- ==== Proof.Region0.lean ====
import proofs.«425315_j42391327212259_4_alg».proof.Proof.Spec
import proofs.«425315_j42391327212259_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The first layer's edge scores, block by block

The grid has 250 points; point `t` holds edges `3200 t … 3200 t + 3199`. Its body contracts the start rows and the end
rows (5 wide) and the coordinate differences (3 wide) with their groups of weight rows, multiplies the edge attribute by
its weight row, adds the four groups and the bias, and takes the logistic. Read entry by entry this is the score's closed
form on the point's edges; the 250 blocks tile the 800000 edges, so the array ends holding the score everywhere.
-/

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two contractions read at an index

Both products contract the second axis of the left operand with the first axis of the right one; at the output index
`(r, j)` and contraction position `k` the operands are read at `(r, k)` and `(k, j)`. -/

theorem lhs5_row (r : Fin 3200) (j : Fin 64) (k : dot_S3200x5_S5x64_S3200x64_1_0_0_1_n_n.contr.Idx) :
    (dot_S3200x5_S5x64_S3200x64_1_0_0_1_n_n.lhsIdx (ix2 r j) k 0).val = r.val := by
  unfold DotDims.lhsIdx
  rw [dif_neg (show ¬(0 : Fin S3200x5.rank) ∈ dot_S3200x5_S5x64_S3200x64_1_0_0_1_n_n.lhsBatch by decide),
    dif_pos (show (0 : Fin S3200x5.rank) ∈ dot_S3200x5_S5x64_S3200x64_1_0_0_1_n_n.lhsNonContracting by decide)]
  rfl

theorem lhs5_depth (r : Fin 3200) (j : Fin 64) (c : Fin 5) :
    (dot_S3200x5_S5x64_S3200x64_1_0_0_1_n_n.lhsIdx (ix2 r j)
      ((contrEquiv1 dot_S3200x5_S5x64_S3200x64_1_0_0_1_n_n 5 rfl rfl).symm c) 1).val = c.val :=
  (dot_S3200x5_S5x64_S3200x64_1_0_0_1_n_n.lhsIdx_val_of_single rfl (ix2 r j) _).trans
    (contrEquiv1_symm_val dot_S3200x5_S5x64_S3200x64_1_0_0_1_n_n 5 rfl rfl c)

theorem rhs5_depth (r : Fin 3200) (j : Fin 64) (c : Fin 5) :
    (dot_S3200x5_S5x64_S3200x64_1_0_0_1_n_n.rhsIdx (ix2 r j)
      ((contrEquiv1 dot_S3200x5_S5x64_S3200x64_1_0_0_1_n_n 5 rfl rfl).symm c) 0).val = c.val :=
  (dot_S3200x5_S5x64_S3200x64_1_0_0_1_n_n.rhsIdx_val_of_single rfl (ix2 r j) _).trans
    (contrEquiv1_symm_val dot_S3200x5_S5x64_S3200x64_1_0_0_1_n_n 5 rfl rfl c)

theorem rhs5_col (r : Fin 3200) (j : Fin 64) (k : dot_S3200x5_S5x64_S3200x64_1_0_0_1_n_n.contr.Idx) :
    (dot_S3200x5_S5x64_S3200x64_1_0_0_1_n_n.rhsIdx (ix2 r j) k 1).val = j.val := by
  unfold DotDims.rhsIdx
  rw [dif_neg (show ¬(1 : Fin S5x64.rank) ∈ dot_S3200x5_S5x64_S3200x64_1_0_0_1_n_n.rhsBatch by decide),
    dif_pos (show (1 : Fin S5x64.rank) ∈ dot_S3200x5_S5x64_S3200x64_1_0_0_1_n_n.rhsNonContracting by decide)]
  rfl

/-- The 5-deep product into the zero accumulator, at `(r, j)`: the sum over `k` of `A (r, k) · B (k, j)`. -/
theorem matmul5_apply (A : FVec Ideal S3200x5 .f32) (B : FVec Ideal S5x64 .f32) (r : Fin 3200) (j : Fin 64) :
    matmul dot_S3200x5_S5x64_S3200x64_1_0_0_1_n_n (some .fp32) A B (constant (F := Ideal) S3200x64 .f32 0x00000000#32) (ix2 r j)
      = ∑ k : Fin 5, A (ix2 r k) * B (ix2 k j) := by
  show FloatOps.matmul dot_S3200x5_S5x64_S3200x64_1_0_0_1_n_n (some .fp32) A B (constant (F := Ideal) S3200x64 .f32 0x00000000#32) (ix2 r j) = _
  rw [Ideal.matmul_constant_zero_apply,
    ← Equiv.sum_comp (contrEquiv1 dot_S3200x5_S5x64_S3200x64_1_0_0_1_n_n 5 rfl rfl).symm]
  refine Finset.sum_congr rfl fun c _ => ?_
  have hl : dot_S3200x5_S5x64_S3200x64_1_0_0_1_n_n.lhsIdx (ix2 r j)
      ((contrEquiv1 dot_S3200x5_S5x64_S3200x64_1_0_0_1_n_n 5 rfl rfl).symm c) = ix2 r c := by
    funext a; apply Fin.ext
    match a with
    | ⟨0, _⟩ => exact lhs5_row r j _
    | ⟨1, _⟩ => exact lhs5_depth r j c
  have hr : dot_S3200x5_S5x64_S3200x64_1_0_0_1_n_n.rhsIdx (ix2 r j)
      ((contrEquiv1 dot_S3200x5_S5x64_S3200x64_1_0_0_1_n_n 5 rfl rfl).symm c) = ix2 c j := by
    funext a; apply Fin.ext
    match a with
    | ⟨0, _⟩ => exact rhs5_depth r j c
    | ⟨1, _⟩ => exact rhs5_col r j _
  rw [hl, hr]

theorem lhs3_row (r : Fin 3200) (j : Fin 64) (k : dot_S3200x3_S3x64_S3200x64_1_0_0_1_n_n.contr.Idx) :
    (dot_S3200x3_S3x64_S3200x64_1_0_0_1_n_n.lhsIdx (ix2 r j) k 0).val = r.val := by
  unfold DotDims.lhsIdx
  rw [dif_neg (show ¬(0 : Fin S3200x3.rank) ∈ dot_S3200x3_S3x64_S3200x64_1_0_0_1_n_n.lhsBatch by decide),
    dif_pos (show (0 : Fin S3200x3.rank) ∈ dot_S3200x3_S3x64_S3200x64_1_0_0_1_n_n.lhsNonContracting by decide)]
  rfl

theorem lhs3_depth (r : Fin 3200) (j : Fin 64) (c : Fin 3) :
    (dot_S3200x3_S3x64_S3200x64_1_0_0_1_n_n.lhsIdx (ix2 r j)
      ((contrEquiv1 dot_S3200x3_S3x64_S3200x64_1_0_0_1_n_n 3 rfl rfl).symm c) 1).val = c.val :=
  (dot_S3200x3_S3x64_S3200x64_1_0_0_1_n_n.lhsIdx_val_of_single rfl (ix2 r j) _).trans
    (contrEquiv1_symm_val dot_S3200x3_S3x64_S3200x64_1_0_0_1_n_n 3 rfl rfl c)

theorem rhs3_depth (r : Fin 3200) (j : Fin 64) (c : Fin 3) :
    (dot_S3200x3_S3x64_S3200x64_1_0_0_1_n_n.rhsIdx (ix2 r j)
      ((contrEquiv1 dot_S3200x3_S3x64_S3200x64_1_0_0_1_n_n 3 rfl rfl).symm c) 0).val = c.val :=
  (dot_S3200x3_S3x64_S3200x64_1_0_0_1_n_n.rhsIdx_val_of_single rfl (ix2 r j) _).trans
    (contrEquiv1_symm_val dot_S3200x3_S3x64_S3200x64_1_0_0_1_n_n 3 rfl rfl c)

theorem rhs3_col (r : Fin 3200) (j : Fin 64) (k : dot_S3200x3_S3x64_S3200x64_1_0_0_1_n_n.contr.Idx) :
    (dot_S3200x3_S3x64_S3200x64_1_0_0_1_n_n.rhsIdx (ix2 r j) k 1).val = j.val := by
  unfold DotDims.rhsIdx
  rw [dif_neg (show ¬(1 : Fin S3x64.rank) ∈ dot_S3200x3_S3x64_S3200x64_1_0_0_1_n_n.rhsBatch by decide),
    dif_pos (show (1 : Fin S3x64.rank) ∈ dot_S3200x3_S3x64_S3200x64_1_0_0_1_n_n.rhsNonContracting by decide)]
  rfl

/-- The 3-deep product into the zero accumulator, at `(r, j)`. -/
theorem matmul3_apply (A : FVec Ideal S3200x3 .f32) (B : FVec Ideal S3x64 .f32) (r : Fin 3200) (j : Fin 64) :
    matmul dot_S3200x3_S3x64_S3200x64_1_0_0_1_n_n (some .fp32) A B (constant (F := Ideal) S3200x64 .f32 0x00000000#32) (ix2 r j)
      = ∑ k : Fin 3, A (ix2 r k) * B (ix2 k j) := by
  show FloatOps.matmul dot_S3200x3_S3x64_S3200x64_1_0_0_1_n_n (some .fp32) A B (constant (F := Ideal) S3200x64 .f32 0x00000000#32) (ix2 r j) = _
  rw [Ideal.matmul_constant_zero_apply,
    ← Equiv.sum_comp (contrEquiv1 dot_S3200x3_S3x64_S3200x64_1_0_0_1_n_n 3 rfl rfl).symm]
  refine Finset.sum_congr rfl fun c _ => ?_
  have hl : dot_S3200x3_S3x64_S3200x64_1_0_0_1_n_n.lhsIdx (ix2 r j)
      ((contrEquiv1 dot_S3200x3_S3x64_S3200x64_1_0_0_1_n_n 3 rfl rfl).symm c) = ix2 r c := by
    funext a; apply Fin.ext
    match a with
    | ⟨0, _⟩ => exact lhs3_row r j _
    | ⟨1, _⟩ => exact lhs3_depth r j c
  have hr : dot_S3200x3_S3x64_S3200x64_1_0_0_1_n_n.rhsIdx (ix2 r j)
      ((contrEquiv1 dot_S3200x3_S3x64_S3200x64_1_0_0_1_n_n 3 rfl rfl).symm c) = ix2 c j := by
    funext a; apply Fin.ext
    match a with
    | ⟨0, _⟩ => exact rhs3_depth r j c
    | ⟨1, _⟩ => exact rhs3_col r j _
  rw [hl, hr]

/-! ## The layout and pointwise steps of the block's arithmetic, at an index -/

/-- One column broadcast over many: a `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic of a vector, entry by entry. -/
theorem logistic_apply {s : Shape} {φ : FTy} (a : FVec Ideal s φ) (i : s.Idx) : logistic a i = Ideal.logistic (a i) := rfl

/-- THE BLOCK'S ARITHMETIC AT AN ENTRY: row `r`, channel `j` of what the body stores is the logistic of the four groups
    of the sum — start rows, end rows, attribute, coordinates — plus the bias. -/
theorem body_apply (x0 x1 : Vec Ideal S3200x5 .f32) (x2 : Vec Ideal S3200x3 .f32) (x3 : Vec Ideal S3200x1 .f32)
    (x4 x5 : Vec Ideal S5x64 .f32) (x6 : Vec Ideal S1x64 .f32) (x7 : Vec Ideal S3x64 .f32) (x8 : Vec Ideal S1x64 .f32)
    (r : Fin 3200) (j : Fin 64) :
    k0_pay1 x0 x1 x2 x3 x4 x5 x6 x7 x8 (ix2 r j)
      = Ideal.logistic
          (((((∑ k : Fin 5, x0 (ix2 r k) * x4 (ix2 k j)) + (∑ k : Fin 5, x1 (ix2 r k) * x5 (ix2 k j)))
              + x3 (ix2 r (0 : Fin 1)) * x6 (ix2 (0 : Fin 1) j))
            + (∑ k : Fin 3, x2 (ix2 r k) * x7 (ix2 k j)))
          + x8 (ix2 (0 : Fin 1) j)) := by
  unfold k0_pay1
  simp only [shapeCast_self, shapeCast_shapeCast, truncf_apply, logistic_apply, addf_apply, mulf_apply]
  rw [matmul5_apply x0 x4 r j, matmul5_apply x1 x5 r j, matmul3_apply x2 x7 r j,
    broadcastTo_a1_ab_apply x3 _ r j, broadcastTo_1b_ab_apply x6 _ r j, broadcastTo_1b_ab_apply x8 _ r j]

/-! ## A block of the score from blocks of its operands -/

/-- If the edge-indexed blocks hold rows `R` of their arrays where the block has row `r`, and the weight blocks are the
    weight arrays, the block's entry `(r, j)` is the score's entry `(R, j)`. -/
theorem score_of_blocks (x0 x1 : Vec Ideal S3200x5 .f32) (x2 : Vec Ideal S3200x3 .f32) (x3 : Vec Ideal S3200x1 .f32)
    (x4 x5 : Vec Ideal S5x64 .f32) (x6 : Vec Ideal S1x64 .f32) (x7 : Vec Ideal S3x64 .f32) (x8 : Vec Ideal S1x64 .f32)
    (hs hd : FVec Ideal S800000x5 .f32) (pd : FVec Ideal S800000x3 .f32) (ea : FVec Ideal S800000x1 .f32)
    (r : Fin 3200) (j : Fin 64) (R : Fin 800000)
    (h0 : ∀ k : Fin 5, x0 (ix2 r k) = hs (ix2 R k)) (h1 : ∀ k : Fin 5, x1 (ix2 r k) = hd (ix2 R k))
    (h2 : ∀ k : Fin 3, x2 (ix2 r k) = pd (ix2 R k)) (h3 : x3 (ix2 r (0 : Fin 1)) = ea (ix2 R (0 : Fin 1))) :
    k0_pay1 x0 x1 x2 x3 x4 x5 x6 x7 x8 (ix2 r j) = Cert.Spec.score5 hs hd pd ea x4 x5 x6 x7 x8 (ix2 R j) := by
  rw [body_apply]
  simp only [h0, h1, h2, h3]
  rfl

/-! ## The windows' blocks, read where the grid point puts them

The edge-indexed windows (the four operands by edge, and the output) are at block `(t, 0)` at point `t`; the weight and
bias windows stay at block `(0, 0)`. -/

theorem zero_offsets : (![0, 0] : Fin 2 → Nat) = fun _ => 0 := funext fun a => by fin_cases a <;> rfl

theorem index_startRows : ∀ t : Fin cfg0.N, win0_0.index t (0 : Fin 2) = t.val ∧ win0_0.index t (1 : Fin 2) = 0 :=
  (by decide +kernel : ∀ t : Fin grid0.N, _)
theorem index_endRows : ∀ t : Fin cfg0.N, win0_1.index t (0 : Fin 2) = t.val ∧ win0_1.index t (1 : Fin 2) = 0 :=
  (by decide +kernel : ∀ t : Fin grid0.N, _)
theorem index_coordDiff : ∀ t : Fin cfg0.N, win0_2.index t (0 : Fin 2) = t.val ∧ win0_2.index t (1 : Fin 2) = 0 :=
  (by decide +kernel : ∀ t : Fin grid0.N, _)
theorem index_attr : ∀ t : Fin cfg0.N, win0_3.index t (0 : Fin 2) = t.val ∧ win0_3.index t (1 : Fin 2) = 0 :=
  (by decide +kernel : ∀ t : Fin grid0.N, _)
theorem index_startWeights : ∀ t : Fin cfg0.N, win0_4.index t (0 : Fin 2) = 0 ∧ win0_4.index t (1 : Fin 2) = 0 :=
  (by decide +kernel : ∀ t : Fin grid0.N, _)
theorem index_endWeights : ∀ t : Fin cfg0.N, win0_5.index t (0 : Fin 2) = 0 ∧ win0_5.index t (1 : Fin 2) = 0 :=
  (by decide +kernel : ∀ t : Fin grid0.N, _)
theorem index_attrWeight : ∀ t : Fin cfg0.N, win0_6.index t (0 : Fin 2) = 0 ∧ win0_6.index t (1 : Fin 2) = 0 :=
  (by decide +kernel : ∀ t : Fin grid0.N, _)
theorem index_coordWeights : ∀ t : Fin cfg0.N, win0_7.index t (0 : Fin 2) = 0 ∧ win0_7.index t (1 : Fin 2) = 0 :=
  (by decide +kernel : ∀ t : Fin grid0.N, _)
theorem index_bias : ∀ t : Fin cfg0.N, win0_8.index t (0 : Fin 2) = 0 ∧ win0_8.index t (1 : Fin 2) = 0 :=
  (by decide +kernel : ∀ t : Fin grid0.N, _)
theorem index_score : ∀ t : Fin cfg0.N, win0_9.index t (0 : Fin 2) = t.val ∧ win0_9.index t (1 : Fin 2) = 0 :=
  (by decide +kernel : ∀ t : Fin grid0.N, _)

/-- The start rows' block at point `t`: rows `3200 t …` of the array. -/
theorem startRows_block (c : Dev nD) (t : Fin cfg0.N) (x : S3200x5.Idx) (k : S800000x5.Idx)
    (hk0 : (k 0).val = t.val * 3200 + (x 0).val) (hk1 : (k 1).val = (x 1).val) :
    (iblk0 V c 0 t : Vec Ideal S3200x5 .f32) x = (V c main_v10 : S800000x5.Idx → Elt Ideal .f32) k := by
  obtain ⟨e0, e1⟩ := index_startRows t
  unfold iblk0
  rw [View.read_apply]
  show V c main_v10 _ = V c main_v10 _
  refine congrArg (V c main_v10) ?_
  funext a; apply Fin.ext
  match a with
  | ⟨0, _⟩ => show win0_0.index t (0 : Fin 2) * 3200 + 1 * (x 0).val = (k 0).val; omega
  | ⟨1, _⟩ => show win0_0.index t (1 : Fin 2) * 5 + 1 * (x 1).val = (k 1).val; omega

/-- The end rows' block. -/
theorem endRows_block (c : Dev nD) (t : Fin cfg0.N) (x : S3200x5.Idx) (k : S800000x5.Idx)
    (hk0 : (k 0).val = t.val * 3200 + (x 0).val) (hk1 : (k 1).val = (x 1).val) :
    (iblk0 V c 1 t : Vec Ideal S3200x5 .f32) x = (V c main_v17 : S800000x5.Idx → Elt Ideal .f32) k := by
  obtain ⟨e0, e1⟩ := index_endRows t
  unfold iblk0
  rw [View.read_apply]
  show V c main_v17 _ = V c main_v17 _
  refine congrArg (V c main_v17) ?_
  funext a; apply Fin.ext
  match a with
  | ⟨0, _⟩ => show win0_1.index t (0 : Fin 2) * 3200 + 1 * (x 0).val = (k 0).val; omega
  | ⟨1, _⟩ => show win0_1.index t (1 : Fin 2) * 5 + 1 * (x 1).val = (k 1).val; omega

/-- The coordinate differences' block. -/
theorem coordDiff_block (c : Dev nD) (t : Fin cfg0.N) (x : S3200x3.Idx) (k : S800000x3.Idx)
    (hk0 : (k 0).val = t.val * 3200 + (x 0).val) (hk1 : (k 1).val = (x 1).val) :
    (iblk0 V c 2 t : Vec Ideal S3200x3 .f32) x = (V c main_v32 : S800000x3.Idx → Elt Ideal .f32) k := by
  obtain ⟨e0, e1⟩ := index_coordDiff t
  unfold iblk0
  rw [View.read_apply]
  show V c main_v32 _ = V c main_v32 _
  refine congrArg (V c main_v32) ?_
  funext a; apply Fin.ext
  match a with
  | ⟨0, _⟩ => show win0_2.index t (0 : Fin 2) * 3200 + 1 * (x 0).val = (k 0).val; omega
  | ⟨1, _⟩ => show win0_2.index t (1 : Fin 2) * 3 + 1 * (x 1).val = (k 1).val; omega

/-- The attributes' block. -/
theorem attr_block (c : Dev nD) (t : Fin cfg0.N) (x : S3200x1.Idx) (k : S800000x1.Idx)
    (hk0 : (k 0).val = t.val * 3200 + (x 0).val) (hk1 : (k 1).val = (x 1).val) :
    (iblk0 V c 3 t : Vec Ideal S3200x1 .f32) x = (V c main_arg3 : S800000x1.Idx → Elt Ideal .f32) k := by
  obtain ⟨e0, e1⟩ := index_attr t
  unfold iblk0
  rw [View.read_apply]
  show V c main_arg3 _ = V c main_arg3 _
  refine congrArg (V c main_arg3) ?_
  funext a; apply Fin.ext
  match a with
  | ⟨0, _⟩ => show win0_3.index t (0 : Fin 2) * 3200 + 1 * (x 0).val = (k 0).val; omega
  | ⟨1, _⟩ => show win0_3.index t (1 : Fin 2) * 1 + 1 * (x 1).val = (k 1).val; omega

/-- The start rows' weights: the block is the array, at every point. -/
theorem startWeights_block (c : Dev nD) (t : Fin cfg0.N) :
    (iblk0 V c 4 t : Vec Ideal S5x64 .f32) = (V c main_v33 : S5x64.Idx → Elt Ideal .f32) := by
  obtain ⟨e0, e1⟩ := index_startWeights t
  funext x
  unfold iblk0
  rw [View.read_apply]
  show V c main_v33 _ = V c main_v33 _
  refine congrArg (V c main_v33) ?_
  funext a; apply Fin.ext
  match a with
  | ⟨0, _⟩ => show win0_4.index t (0 : Fin 2) * 5 + 1 * (x 0).val = (x 0).val; omega
  | ⟨1, _⟩ => show win0_4.index t (1 : Fin 2) * 64 + 1 * (x 1).val = (x 1).val; omega

/-- The end rows' weights. -/
theorem endWeights_block (c : Dev nD) (t : Fin cfg0.N) :
    (iblk0 V c 5 t : Vec Ideal S5x64 .f32) = (V c main_v34 : S5x64.Idx → Elt Ideal .f32) := by
  obtain ⟨e0, e1⟩ := index_endWeights t
  funext x
  unfold iblk0
  rw [View.read_apply]
  show V c main_v34 _ = V c main_v34 _
  refine congrArg (V c main_v34) ?_
  funext a; apply Fin.ext
  match a with
  | ⟨0, _⟩ => show win0_5.index t (0 : Fin 2) * 5 + 1 * (x 0).val = (x 0).val; omega
  | ⟨1, _⟩ => show win0_5.index t (1 : Fin 2) * 64 + 1 * (x 1).val = (x 1).val; omega

/-- The attribute's weight row. -/
theorem attrWeight_block (c : Dev nD) (t : Fin cfg0.N) :
    (iblk0 V c 6 t : Vec Ideal S1x64 .f32) = (V c main_v35 : S1x64.Idx → Elt Ideal .f32) := by
  obtain ⟨e0, e1⟩ := index_attrWeight t
  funext x
  unfold iblk0
  rw [View.read_apply]
  show V c main_v35 _ = V c main_v35 _
  refine congrArg (V c main_v35) ?_
  funext a; apply Fin.ext
  match a with
  | ⟨0, _⟩ => show win0_6.index t (0 : Fin 2) * 1 + 1 * (x 0).val = (x 0).val; omega
  | ⟨1, _⟩ => show win0_6.index t (1 : Fin 2) * 64 + 1 * (x 1).val = (x 1).val; omega

/-- The coordinates' weights. -/
theorem coordWeights_block (c : Dev nD) (t : Fin cfg0.N) :
    (iblk0 V c 7 t : Vec Ideal S3x64 .f32) = (V c main_v36 : S3x64.Idx → Elt Ideal .f32) := by
  obtain ⟨e0, e1⟩ := index_coordWeights t
  funext x
  unfold iblk0
  rw [View.read_apply]
  show V c main_v36 _ = V c main_v36 _
  refine congrArg (V c main_v36) ?_
  funext a; apply Fin.ext
  match a with
  | ⟨0, _⟩ => show win0_7.index t (0 : Fin 2) * 3 + 1 * (x 0).val = (x 0).val; omega
  | ⟨1, _⟩ => show win0_7.index t (1 : Fin 2) * 64 + 1 * (x 1).val = (x 1).val; omega

/-- The bias row. -/
theorem bias_block (c : Dev nD) (t : Fin cfg0.N) :
    (iblk0 V c 8 t : Vec Ideal S1x64 .f32) = (V c main_call0_v0 : S1x64.Idx → Elt Ideal .f32) := by
  obtain ⟨e0, e1⟩ := index_bias t
  funext x
  unfold iblk0
  rw [View.read_apply]
  show V c main_call0_v0 _ = V c main_call0_v0 _
  refine congrArg (V c main_call0_v0) ?_
  funext a; apply Fin.ext
  match a with
  | ⟨0, _⟩ => show win0_8.index t (0 : Fin 2) * 1 + 1 * (x 0).val = (x 0).val; omega
  | ⟨1, _⟩ => show win0_8.index t (1 : Fin 2) * 64 + 1 * (x 1).val = (x 1).val; omega

/-- A whole-array function read through the output's block at point `t`: rows `3200 t …` of it. -/
theorem read_edge_block (G : FVec Ideal S800000x64 .bf16) (t : Fin cfg0.N) (y : S3200x64.Idx) (k : S800000x64.Idx)
    (hk0 : (k 0).val = t.val * 3200 + (y 0).val) (hk1 : (k 1).val = (y 1).val) :
    ((cfg0.win 9).blk t).view.read (Elt Ideal) G y = G k := by
  obtain ⟨e0, e1⟩ := index_score t
  rw [View.read_apply]
  show G _ = G _
  refine congrArg G ?_
  funext a; apply Fin.ext
  match a with
  | ⟨0, _⟩ => show win0_9.index t (0 : Fin 2) * 3200 + 1 * (y 0).val = (k 0).val; omega
  | ⟨1, _⟩ => show win0_9.index t (1 : Fin 2) * 64 + 1 * (y 1).val = (k 1).val; omega

/-! ## What a point writes back, and the array after the last point -/

/-- WHAT POINT `t` WRITES BACK is block `t` of the score of the nine arrays as the region finds them. -/
theorem writeback_eq (c : Dev nD) (t : Fin cfg0.N) :
    (dat0 (F := Ideal) V c).flushed 9 t = ((cfg0.win 9).blk t).view.read (Elt Ideal)
      (Cert.Spec.score5 (V c main_v10) (V c main_v17) (V c main_v32) (V c main_arg3) (V c main_v33) (V c main_v34) (V c main_v35) (V c main_v36) (V c main_call0_v0)) := by
  show (cfg0.win 9).cut (grid0.coords t) ((dat0 (F := Ideal) V c).after 9 t) = _
  rw [after0_9]
  unfold out0_9
  rw [View.canon_unit_zero zero_offsets]
  simp only [View.ld_unit_zero (S := S3200x5) zero_offsets, View.ld_unit_zero (S := S3200x3) zero_offsets, View.ld_unit_zero (S := S3200x1) zero_offsets,
    View.ld_unit_zero (S := S5x64) zero_offsets, View.ld_unit_zero (S := S1x64) zero_offsets, View.ld_unit_zero (S := S3x64) zero_offsets]
  funext y
  have hN : cfg0.N = 250 := N_0
  have ht : t.val < 250 := by have := t.isLt; omega
  obtain ⟨r, j, hy, hr, hj⟩ : ∃ (r : Fin 3200) (j : Fin 64),
      (cfg0.win 9).xinj (grid0.coords t) y = ix2 r j ∧ r.val = (y 0).val ∧ j.val = (y 1).val :=
    ⟨y 0, y 1, eq_ix2 (n0 := 3200) (n1 := 64) _, rfl, rfl⟩
  show k0_pay1 _ _ _ _ _ _ _ _ _ ((cfg0.win 9).xinj (grid0.coords t) y) = _
  rw [hy, startWeights_block V c t, endWeights_block V c t, attrWeight_block V c t, coordWeights_block V c t, bias_block V c t]
  have hR : t.val * 3200 + r.val < 800000 := by have := r.isLt; omega
  refine (score_of_blocks (iblk0 V c 0 t) (iblk0 V c 1 t) (iblk0 V c 2 t) (iblk0 V c 3 t) _ _ _ _ _
    (V c main_v10) (V c main_v17) (V c main_v32) (V c main_arg3) r j ⟨t.val * 3200 + r.val, hR⟩
    (fun k => startRows_block V c t (ix2 r k) (ix2 ⟨t.val * 3200 + r.val, hR⟩ k) rfl rfl)
    (fun k => endRows_block V c t (ix2 r k) (ix2 ⟨t.val * 3200 + r.val, hR⟩ k) rfl rfl)
    (fun k => coordDiff_block V c t (ix2 r k) (ix2 ⟨t.val * 3200 + r.val, hR⟩ k) rfl rfl)
    (attr_block V c t (ix2 r (0 : Fin 1)) (ix2 ⟨t.val * 3200 + r.val, hR⟩ (0 : Fin 1)) rfl rfl)).trans ?_
  exact (read_edge_block _ t y (ix2 ⟨t.val * 3200 + r.val, hR⟩ j)
    (by show t.val * 3200 + r.val = t.val * 3200 + (y 0).val; omega) hj).symm

/-- An index of the array is in point `t`'s block iff each coordinate is in the block's range on its axis. -/
theorem mem_edge_block (t : Fin cfg0.N) (i : S800000x64.Idx) :
    i ∈ ((cfg0.win 9).blk t).view.set ↔ ∀ a : Fin 2, win0_9.index t a * S3200x64.size a ≤ (i a).val ∧ (i a).val < win0_9.index t a * S3200x64.size a + S3200x64.size a := by
  show i ∈ ((View.whole main_v37).slice (win0_9.rect t)).set ↔ _
  rw [View.set_slice_whole, Rect.mem_set_unit]
  exact Iff.rfl

/-- Every edge is in some point's block: edge `e` in that of point `e / 3200`; the columns are whole. -/
theorem edges_covered (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hN : cfg0.N = 250 := N_0
  have hq : (i 0).val / 3200 < cfg0.N := by rw [hN]; omega
  obtain ⟨e0, e1⟩ := index_score ⟨(i 0).val / 3200, hq⟩
  refine ⟨⟨(i 0).val / 3200, hq⟩, flush0_9 _, ?_⟩
  rw [mem_edge_block]
  intro a
  match a with
  | ⟨0, _⟩ =>
    show win0_9.index ⟨(i 0).val / 3200, hq⟩ (0 : Fin 2) * 3200 ≤ (i 0).val ∧ (i 0).val < win0_9.index ⟨(i 0).val / 3200, hq⟩ (0 : Fin 2) * 3200 + 3200
    rw [e0]; show (i 0).val / 3200 * 3200 ≤ (i 0).val ∧ (i 0).val < (i 0).val / 3200 * 3200 + 3200; omega
  | ⟨1, _⟩ =>
    show win0_9.index ⟨(i 0).val / 3200, hq⟩ (1 : Fin 2) * 64 ≤ (i 1).val ∧ (i 1).val < win0_9.index ⟨(i 0).val / 3200, hq⟩ (1 : Fin 2) * 64 + 64
    rw [e1]; omega

/-- THE OUTPUT ARRAY after the region: the score of the nine arrays as the region finds them. -/
theorem arr0 (c : Dev nD) :
    (dat0 (F := Ideal) V c).arrAt 9 cfg0.N
      = Cert.Spec.score5 (V c main_v10) (V c main_v17) (V c main_v32) (V c main_arg3) (V c main_v33) (V c main_v34) (V c main_v35) (V c main_v36) (V c main_call0_v0) :=
  (dat0 (F := Ideal) V c).arrAt_eq_of_cover 9
    (Cert.Spec.score5 (V c main_v10) (V c main_v17) (V c main_v32) (V c main_arg3) (V c main_v33) (V c main_v34) (V c main_v35) (V c main_v36) (V c main_call0_v0))
    (fun t _ => writeback_eq V c t) edges_covered

end Cert.KernelIdeal.Region0

end
-- ==== Proof.Region1.lean ====
import proofs.«425315_j42391327212259_4_alg».proof.Proof.Spec
import proofs.«425315_j42391327212259_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# The second layer's edge scores, block by block

The region runs over 250 grid points; point `t` holds edges `3200 t … 3200 t + 3199`. At a point the body multiplies
the block of start-node rows and the block of end-node rows by their 64×64 weights, the attribute column by its
weight row, the block of coordinate differences by its 3×64 weights, adds the four and the bias row, and stores the
logistic, narrowed. Read at an entry `(r, j)` each product is a finite sum over the shared coordinate
(`matmulWide_apply`, `matmulThin_apply`), so the stored value is the score of edge `3200 t + r` in channel `j`
(`pay_apply`, `point_eq`). The four edge arrays and the output move with the point along the rows, the weights and
the bias are whole at every point (`idx_facts`), so what point `t` writes back is block `t` of the score of the
arrays the region finds (`flushed_eq`); row `e` lies in the block of point `e / 3200` and the columns are whole
(`cover`), so the array ends holding the score everywhere (`arr1`).
-/

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## A product of a block of rows with a weight matrix, read at an index -/

theorem lhsWide_0 (j : S3200x64.Idx) (k : dot_S3200x64_S64x64_S3200x64_1_0_0_1_n_n.contr.Idx) :
    (dot_S3200x64_S64x64_S3200x64_1_0_0_1_n_n.lhsIdx j k 0 : ℕ) = j 0 := by
  simp [DotDims.lhsIdx, dot_S3200x64_S64x64_S3200x64_1_0_0_1_n_n]; rfl
theorem lhsWide_1 (j : S3200x64.Idx) (k : dot_S3200x64_S64x64_S3200x64_1_0_0_1_n_n.contr.Idx) :
    (dot_S3200x64_S64x64_S3200x64_1_0_0_1_n_n.lhsIdx j k 1 : ℕ) = k ⟨0, by decide⟩ := by
  simp [DotDims.lhsIdx, dot_S3200x64_S64x64_S3200x64_1_0_0_1_n_n]; rfl
theorem rhsWide_0 (j : S3200x64.Idx) (k : dot_S3200x64_S64x64_S3200x64_1_0_0_1_n_n.contr.Idx) :
    (dot_S3200x64_S64x64_S3200x64_1_0_0_1_n_n.rhsIdx j k 0 : ℕ) = k ⟨0, by decide⟩ := by
  simp [DotDims.rhsIdx, dot_S3200x64_S64x64_S3200x64_1_0_0_1_n_n]; rfl
theorem rhsWide_1 (j : S3200x64.Idx) (k : dot_S3200x64_S64x64_S3200x64_1_0_0_1_n_n.contr.Idx) :
    (dot_S3200x64_S64x64_S3200x64_1_0_0_1_n_n.rhsIdx j k 1 : ℕ) = j 1 := by
  simp [DotDims.rhsIdx, dot_S3200x64_S64x64_S3200x64_1_0_0_1_n_n]; rfl

/-- Rows times a 64×64 weight matrix into a zero accumulator: entry `(r, j)` is the sum over the 64 shared
    coordinates of the products of the entries. -/
theorem matmulWide_apply (x : FVec Ideal S3200x64 .f32) (w : FVec Ideal S64x64 .f32) (r : Fin 3200) (j : Fin 64) :
    matmul dot_S3200x64_S64x64_S3200x64_1_0_0_1_n_n (some .fp32) x w (constant S3200x64 .f32 0x00000000#32) (ix2 r j)
      = ∑ k : Fin 64, x (ix2 r k) * w (ix2 k j) := by
  show FloatOps.matmul _ _ x w _ (ix2 r j) = _
  rw [Ideal.matmul_constant_zero_apply,
    ← Equiv.sum_comp (contrEquiv1 dot_S3200x64_S64x64_S3200x64_1_0_0_1_n_n 64 rfl rfl).symm]
  refine Finset.sum_congr rfl fun k _ => ?_
  have hk := contrEquiv1_symm_val dot_S3200x64_S64x64_S3200x64_1_0_0_1_n_n 64 rfl rfl k
  have hl : dot_S3200x64_S64x64_S3200x64_1_0_0_1_n_n.lhsIdx (ix2 r j) ((contrEquiv1 _ 64 rfl rfl).symm k) = ix2 r k := by
    funext ax; apply Fin.ext
    match ax with
    | ⟨0, _⟩ => exact lhsWide_0 _ _
    | ⟨1, _⟩ => exact (lhsWide_1 _ _).trans hk
  have hr : dot_S3200x64_S64x64_S3200x64_1_0_0_1_n_n.rhsIdx (ix2 r j) ((contrEquiv1 _ 64 rfl rfl).symm k) = ix2 k j := by
    funext ax; apply Fin.ext
    match ax with
    | ⟨0, _⟩ => exact (rhsWide_0 _ _).trans hk
    | ⟨1, _⟩ => exact rhsWide_1 _ _
  rw [hl, hr]

theorem lhsThin_0 (j : S3200x64.Idx) (k : dot_S3200x3_S3x64_S3200x64_1_0_0_1_n_n.contr.Idx) :
    (dot_S3200x3_S3x64_S3200x64_1_0_0_1_n_n.lhsIdx j k 0 : ℕ) = j 0 := by
  simp [DotDims.lhsIdx, dot_S3200x3_S3x64_S3200x64_1_0_0_1_n_n]; rfl
theorem lhsThin_1 (j : S3200x64.Idx) (k : dot_S3200x3_S3x64_S3200x64_1_0_0_1_n_n.contr.Idx) :
    (dot_S3200x3_S3x64_S3200x64_1_0_0_1_n_n.lhsIdx j k 1 : ℕ) = k ⟨0, by decide⟩ := by
  simp [DotDims.lhsIdx, dot_S3200x3_S3x64_S3200x64_1_0_0_1_n_n]; rfl
theorem rhsThin_0 (j : S3200x64.Idx) (k : dot_S3200x3_S3x64_S3200x64_1_0_0_1_n_n.contr.Idx) :
    (dot_S3200x3_S3x64_S3200x64_1_0_0_1_n_n.rhsIdx j k 0 : ℕ) = k ⟨0, by decide⟩ := by
  simp [DotDims.rhsIdx, dot_S3200x3_S3x64_S3200x64_1_0_0_1_n_n]; rfl
theorem rhsThin_1 (j : S3200x64.Idx) (k : dot_S3200x3_S3x64_S3200x64_1_0_0_1_n_n.contr.Idx) :
    (dot_S3200x3_S3x64_S3200x64_1_0_0_1_n_n.rhsIdx j k 1 : ℕ) = j 1 := by
  simp [DotDims.rhsIdx, dot_S3200x3_S3x64_S3200x64_1_0_0_1_n_n]; rfl

/-- Coordinate differences times a 3×64 weight matrix into a zero accumulator: entry `(r, j)` is the sum over the
    3 shared coordinates. -/
theorem matmulThin_apply (x : FVec Ideal S3200x3 .f32) (w : FVec Ideal S3x64 .f32) (r : Fin 3200) (j : Fin 64) :
    matmul dot_S3200x3_S3x64_S3200x64_1_0_0_1_n_n (some .fp32) x w (constant S3200x64 .f32 0x00000000#32) (ix2 r j)
      = ∑ k : Fin 3, x (ix2 r k) * w (ix2 k j) := by
  show FloatOps.matmul _ _ x w _ (ix2 r j) = _
  rw [Ideal.matmul_constant_zero_apply,
    ← Equiv.sum_comp (contrEquiv1 dot_S3200x3_S3x64_S3200x64_1_0_0_1_n_n 3 rfl rfl).symm]
  refine Finset.sum_congr rfl fun k _ => ?_
  have hk := contrEquiv1_symm_val dot_S3200x3_S3x64_S3200x64_1_0_0_1_n_n 3 rfl rfl k
  have hl : dot_S3200x3_S3x64_S3200x64_1_0_0_1_n_n.lhsIdx (ix2 r j) ((contrEquiv1 _ 3 rfl rfl).symm k) = ix2 r k := by
    funext ax; apply Fin.ext
    match ax with
    | ⟨0, _⟩ => exact lhsThin_0 _ _
    | ⟨1, _⟩ => exact (lhsThin_1 _ _).trans hk
  have hr : dot_S3200x3_S3x64_S3200x64_1_0_0_1_n_n.rhsIdx (ix2 r j) ((contrEquiv1 _ 3 rfl rfl).symm k) = ix2 k j := by
    funext ax; apply Fin.ext
    match ax with
    | ⟨0, _⟩ => exact (rhsThin_0 _ _).trans hk
    | ⟨1, _⟩ => exact rhsThin_1 _ _
  rw [hl, hr]

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index -/

/-- The logistic of a vector reads, at an index, the logistic of the entry. -/
theorem logistic_apply {s : Shape} {φ : FTy} (a : FVec Ideal s φ) (i : s.Idx) : logistic a i = Ideal.logistic (a i) := rfl

/-- The body's one stored value with its identity reshapes removed: the two endpoint products added, the attribute
    column times its weight row, the coordinate product, the bias row, through the logistic, narrowed. -/
theorem pay_eq (x0 x1 : Vec Ideal S3200x64 .f32) (x2 : Vec Ideal S3200x3 .f32) (x3 : Vec Ideal S3200x1 .f32)
    (x4 x5 : Vec Ideal S64x64 .f32) (x6 : Vec Ideal S1x64 .f32) (x7 : Vec Ideal S3x64 .f32) (x8 : Vec Ideal S1x64 .f32) :
    k1_pay1 (F := Ideal) x0 x1 x2 x3 x4 x5 x6 x7 x8
      = truncf .bf16 (logistic (addf (addf (addf (addf
          (matmul (φ₁ := .f32) (φ₂ := .f32) dot_S3200x64_S64x64_S3200x64_1_0_0_1_n_n (some .fp32) x0 x4 (constant S3200x64 .f32 0x00000000#32))
          (matmul (φ₁ := .f32) (φ₂ := .f32) dot_S3200x64_S64x64_S3200x64_1_0_0_1_n_n (some .fp32) x1 x5 (constant S3200x64 .f32 0x00000000#32)))
          (mulf (broadcastTo S3200x64 x3 broadcasts_S3200x1_S3200x64) (broadcastTo S3200x64 x6 broadcasts_S1x64_S3200x64)))
          (matmul (φ₁ := .f32) (φ₂ := .f32) dot_S3200x3_S3x64_S3200x64_1_0_0_1_n_n (some .fp32) x2 x7 (constant S3200x64 .f32 0x00000000#32)))
          (broadcastTo S3200x64 x8 broadcasts_S1x64_S3200x64))) bitsLt_bf16_f32 := by
  unfold k1_pay1
  simp only [shapeCast_self, shapeCast_shapeCast]

/-- Entry `(r, j)` of the body's stored value: the logistic of the four groups of the sum and the bias. -/
theorem pay_apply (x0 x1 : Vec Ideal S3200x64 .f32) (x2 : Vec Ideal S3200x3 .f32) (x3 : Vec Ideal S3200x1 .f32)
    (x4 x5 : Vec Ideal S64x64 .f32) (x6 : Vec Ideal S1x64 .f32) (x7 : Vec Ideal S3x64 .f32) (x8 : Vec Ideal S1x64 .f32)
    (r : Fin 3200) (j : Fin 64) :
    k1_pay1 (F := Ideal) x0 x1 x2 x3 x4 x5 x6 x7 x8 (ix2 r j)
      = Ideal.logistic
          (((((∑ k : Fin 64, x0 (ix2 r k) * x4 (ix2 k j)) + (∑ k : Fin 64, x1 (ix2 r k) * x5 (ix2 k j)))
              + x3 (ix2 r (0 : Fin 1)) * x6 (ix2 (0 : Fin 1) j))
            + (∑ k : Fin 3, x2 (ix2 r k) * x7 (ix2 k j)))
          + x8 (ix2 (0 : Fin 1) j)) := by
  rw [pay_eq, truncf_apply, logistic_apply, addf_apply, addf_apply, addf_apply, addf_apply, mulf_apply,
    matmulWide_apply, matmulWide_apply, matmulThin_apply, broadcastTo_a1_ab_apply, broadcastTo_1b_ab_apply,
    broadcastTo_1b_ab_apply]

/-! ## Where the blocks lie -/

theorem zeroOff : (![0, 0] : Fin 2 → Nat) = fun _ => 0 := funext fun a => by fin_cases a <;> rfl

/-- The printed index maps, decided over the 250 grid points: the four edge arrays and the output move with the
    point along the rows, one block per point; the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem point_lt (t : Fin cfg1.N) : t.val < 250 := by
  have h := t.isLt
  have hN : cfg1.N = 250 := N_1
  omega

/-- The start-node rows' block at point `t` is rows `3200 t …` of their array. -/
theorem startRows_apply (c : Dev nD) (t : Fin cfg1.N) (y : S3200x64.Idx) (k : S800000x64.Idx)
    (hk0 : (k 0).val = 3200 * t.val + (y 0).val) (hk1 : (k 1).val = (y 1).val) :
    (iblk1 (F := Ideal) V c 0 t : Vec Ideal S3200x64 .f32) y = (V c main_v48 : S800000x64.Idx → Elt Ideal .f32) k := by
  have e0 := (idx_facts t).1
  have e1 := (idx_facts t).2.1
  unfold iblk1
  rw [View.read_apply]
  show V c main_v48 _ = V c main_v48 _
  congr 1
  funext a
  apply Fin.ext
  match a with
  | ⟨0, _⟩ => show win1_0.index t (0 : Fin 2) * 3200 + 1 * (y 0).val = (k 0).val; rw [e0, hk0]; omega
  | ⟨1, _⟩ => show win1_0.index t (1 : Fin 2) * 64 + 1 * (y 1).val = (k 1).val; rw [e1, hk1]; omega

/-- The end-node rows' block at point `t` is rows `3200 t …` of their array. -/
theorem endRows_apply (c : Dev nD) (t : Fin cfg1.N) (y : S3200x64.Idx) (k : S800000x64.Idx)
    (hk0 : (k 0).val = 3200 * t.val + (y 0).val) (hk1 : (k 1).val = (y 1).val) :
    (iblk1 (F := Ideal) V c 1 t : Vec Ideal S3200x64 .f32) y = (V c main_v55 : S800000x64.Idx → Elt Ideal .f32) k := by
  have e0 := (idx_facts t).2.2.1
  have e1 := (idx_facts t).2.2.2.1
  unfold iblk1
  rw [View.read_apply]
  show V c main_v55 _ = V c main_v55 _
  congr 1
  funext a
  apply Fin.ext
  match a with
  | ⟨0, _⟩ => show win1_1.index t (0 : Fin 2) * 3200 + 1 * (y 0).val = (k 0).val; rw [e0, hk0]; omega
  | ⟨1, _⟩ => show win1_1.index t (1 : Fin 2) * 64 + 1 * (y 1).val = (k 1).val; rw [e1, hk1]; omega

/-- The coordinate differences' block at point `t` is rows `3200 t …` of their array. -/
theorem diffRows_apply (c : Dev nD) (t : Fin cfg1.N) (y : S3200x3.Idx) (k : S800000x3.Idx)
    (hk0 : (k 0).val = 3200 * t.val + (y 0).val) (hk1 : (k 1).val = (y 1).val) :
    (iblk1 (F := Ideal) V c 2 t : Vec Ideal S3200x3 .f32) y = (V c main_v70 : S800000x3.Idx → Elt Ideal .f32) k := by
  have e0 := (idx_facts t).2.2.2.2.1
  have e1 := (idx_facts t).2.2.2.2.2.1
  unfold iblk1
  rw [View.read_apply]
  show V c main_v70 _ = V c main_v70 _
  congr 1
  funext a
  apply Fin.ext
  match a with
  | ⟨0, _⟩ => show win1_2.index t (0 : Fin 2) * 3200 + 1 * (y 0).val = (k 0).val; rw [e0, hk0]; omega
  | ⟨1, _⟩ => show win1_2.index t (1 : Fin 2) * 3 + 1 * (y 1).val = (k 1).val; rw [e1, hk1]; omega

/-- The edge attributes' block at point `t` is rows `3200 t …` of their array. -/
theorem attrRows_apply (c : Dev nD) (t : Fin cfg1.N) (y : S3200x1.Idx) (k : S800000x1.Idx)
    (hk0 : (k 0).val = 3200 * t.val + (y 0).val) (hk1 : (k 1).val = (y 1).val) :
    (iblk1 (F := Ideal) V c 3 t : Vec Ideal S3200x1 .f32) y = (V c main_arg3 : S800000x1.Idx → Elt Ideal .f32) k := by
  have e0 := (idx_facts t).2.2.2.2.2.2.1
  have e1 := (idx_facts t).2.2.2.2.2.2.2.1
  unfold iblk1
  rw [View.read_apply]
  show V c main_arg3 _ = V c main_arg3 _
  congr 1
  funext a
  apply Fin.ext
  match a with
  | ⟨0, _⟩ => show win1_3.index t (0 : Fin 2) * 3200 + 1 * (y 0).val = (k 0).val; rw [e0, hk0]; omega
  | ⟨1, _⟩ => show win1_3.index t (1 : Fin 2) * 1 + 1 * (y 1).val = (k 1).val; rw [e1, hk1]; omega

/-- The start-node weights' block is their whole array at every point. -/
theorem startWeights_eq (c : Dev nD) (t : Fin cfg1.N) :
    (iblk1 (F := Ideal) V c 4 t : Vec Ideal S64x64 .f32) = (V c main_v71 : S64x64.Idx → Elt Ideal .f32) := by
  have e0 := (idx_facts t).2.2.2.2.2.2.2.2.1
  have e1 := (idx_facts t).2.2.2.2.2.2.2.2.2.1
  unfold iblk1
  funext y
  rw [View.read_apply]
  show V c main_v71 _ = V c main_v71 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The end-node weights' block is their whole array at every point. -/
theorem endWeights_eq (c : Dev nD) (t : Fin cfg1.N) :
    (iblk1 (F := Ideal) V c 5 t : Vec Ideal S64x64 .f32) = (V c main_v72 : S64x64.Idx → Elt Ideal .f32) := by
  have e0 := (idx_facts t).2.2.2.2.2.2.2.2.2.2.1
  have e1 := (idx_facts t).2.2.2.2.2.2.2.2.2.2.2.1
  unfold iblk1
  funext y
  rw [View.read_apply]
  show V c main_v72 _ = V c main_v72 _
  congr 1
  funext a
  apply Fin.ext
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

/-- The attribute weights' block is their whole row at every point. -/
theorem attrWeights_eq (c : Dev nD) (t : Fin cfg1.N) :
    (iblk1 (F := Ideal) V c 6 t : Vec Ideal S1x64 .f32) = (V c main_v73 : S1x64.Idx → Elt Ideal .f32) := by
  have e0 := (idx_facts t).2.2.2.2.2.2.2.2.2.2.2.2.1
  have e1 := (idx_facts t).2.2.2.2.2.2.2.2.2.2.2.2.2.1
  unfold iblk1
  funext y
  rw [View.read_apply]
  show V c main_v73 _ = V c main_v73 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- The coordinate weights' block is their whole array at every point. -/
theorem diffWeights_eq (c : Dev nD) (t : Fin cfg1.N) :
    (iblk1 (F := Ideal) V c 7 t : Vec Ideal S3x64 .f32) = (V c main_v74 : S3x64.Idx → Elt Ideal .f32) := by
  have e0 := (idx_facts t).2.2.2.2.2.2.2.2.2.2.2.2.2.2.1
  have e1 := (idx_facts t).2.2.2.2.2.2.2.2.2.2.2.2.2.2.2.1
  unfold iblk1
  funext y
  rw [View.read_apply]
  show V c main_v74 _ = V c main_v74 _
  congr 1
  funext a
  apply Fin.ext
  match a with
  | ⟨0, _⟩ => show win1_7.index t (0 : Fin 2) * 3 + 1 * (y 0).val = (y 0).val; rw [e0]; omega
  | ⟨1, _⟩ => show win1_7.index t (1 : Fin 2) * 64 + 1 * (y 1).val = (y 1).val; rw [e1]; omega

/-- The bias row's block is the whole row at every point. -/
theorem bias_eq (c : Dev nD) (t : Fin cfg1.N) :
    (iblk1 (F := Ideal) V c 8 t : Vec Ideal S1x64 .f32) = (V c main_call1_v0 : S1x64.Idx → Elt Ideal .f32) := by
  have e0 := (idx_facts t).2.2.2.2.2.2.2.2.2.2.2.2.2.2.2.2.1
  have e1 := (idx_facts t).2.2.2.2.2.2.2.2.2.2.2.2.2.2.2.2.2.1
  unfold iblk1
  funext y
  rw [View.read_apply]
  show V c main_call1_v0 _ = V c main_call1_v0 _
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 64 + 1 * (y 1).val = (y 1).val; rw [e1]; omega

/-- Entry `(r, j)` of the output's block at point `t` is entry `(3200 t + r, j)` of the array. -/
theorem out_emb (t : Fin cfg1.N) (r : Fin 3200) (j : Fin 64) (e : Fin 800000) (he : e.val = 3200 * t.val + r.val) :
    (((cfg1.win 9).blk t).view.emb (ix2 r j) : S800000x64.Idx) = ix2 e j := by
  have e0 := (idx_facts t).2.2.2.2.2.2.2.2.2.2.2.2.2.2.2.2.2.2.1
  have e1 := (idx_facts t).2.2.2.2.2.2.2.2.2.2.2.2.2.2.2.2.2.2.2
  funext a
  apply Fin.ext
  match a with
  | ⟨0, _⟩ => show win1_9.index t (0 : Fin 2) * 3200 + 1 * r.val = e.val; rw [e0, he]; omega
  | ⟨1, _⟩ => show win1_9.index t (1 : Fin 2) * 64 + 1 * j.val = j.val; rw [e1]; omega

/-! ## What a point writes back -/

/-- One entry of the body's stored value from blocks that are rows `e` of the edge arrays and the whole weight
    arrays: the score of edge `e` in channel `j`. -/
theorem point_eq (x0 x1 : Vec Ideal S3200x64 .f32) (x2 : Vec Ideal S3200x3 .f32) (x3 : Vec Ideal S3200x1 .f32)
    (x4 x5 : Vec Ideal S64x64 .f32) (x6 : Vec Ideal S1x64 .f32) (x7 : Vec Ideal S3x64 .f32) (x8 : Vec Ideal S1x64 .f32)
    (hs hd : FVec Ideal S800000x64 .f32) (pd : FVec Ideal S800000x3 .f32) (ea : FVec Ideal S800000x1 .f32)
    (wa wb : FVec Ideal S64x64 .f32) (wc : FVec Ideal S1x64 .f32) (wd : FVec Ideal S3x64 .f32) (b : FVec Ideal S1x64 .f32)
    (r : Fin 3200) (j : Fin 64) (e : Fin 800000)
    (h0 : ∀ k : Fin 64, x0 (ix2 r k) = hs (ix2 e k)) (h1 : ∀ k : Fin 64, x1 (ix2 r k) = hd (ix2 e k))
    (h2 : ∀ k : Fin 3, x2 (ix2 r k) = pd (ix2 e k)) (h3 : x3 (ix2 r (0 : Fin 1)) = ea (ix2 e (0 : Fin 1)))
    (h4 : x4 = wa) (h5 : x5 = wb) (h6 : x6 = wc) (h7 : x7 = wd) (h8 : x8 = b) :
    k1_pay1 (F := Ideal) x0 x1 x2 x3 x4 x5 x6 x7 x8 (ix2 r j) = Cert.Spec.score64 hs hd pd ea wa wb wc wd b (ix2 e j) := by
  subst h4 h5 h6 h7 h8
  rw [pay_apply]
  show _ = Ideal.logistic
          (((((∑ k : Fin 64, hs (ix2 e k) * x4 (ix2 k j)) + (∑ k : Fin 64, hd (ix2 e k) * x5 (ix2 k j)))
              + ea (ix2 e (0 : Fin 1)) * x6 (ix2 (0 : Fin 1) j))
            + (∑ k : Fin 3, pd (ix2 e k) * x7 (ix2 k j)))
          + x8 (ix2 (0 : Fin 1) j))
  simp only [h0, h1, h2, h3]

/-- The body's stored value at point `t`, entry by entry, is the score read where the output's block lies. -/
theorem point_block (c : Dev nD) (t : Fin cfg1.N) (y : S3200x64.Idx) :
    k1_pay1 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) y
      = Cert.Spec.score64 (V c main_v48) (V c main_v55) (V c main_v70) (V c main_arg3) (V c main_v71) (V c main_v72) (V c main_v73) (V c main_v74) (V c main_call1_v0) (((cfg1.win 9).blk t).view.emb y) := by
  obtain ⟨r, j, rfl⟩ : ∃ (r : Fin 3200) (j : Fin 64), y = ix2 r j := ⟨y 0, y 1, eq_ix2 y⟩
  have ht := point_lt t
  have he : 3200 * t.val + r.val < 800000 := by have := r.isLt; omega
  rw [out_emb t r j ⟨3200 * t.val + r.val, he⟩ rfl]
  exact point_eq (iblk1 V c 0 t) (iblk1 V c 1 t) (iblk1 V c 2 t) (iblk1 V c 3 t) (iblk1 V c 4 t) (iblk1 V c 5 t) (iblk1 V c 6 t) (iblk1 V c 7 t) (iblk1 V c 8 t) (V c main_v48) (V c main_v55) (V c main_v70) (V c main_arg3) (V c main_v71) (V c main_v72) (V c main_v73) (V c main_v74) (V c main_call1_v0) r j ⟨3200 * t.val + r.val, he⟩
    (fun k => startRows_apply V c t (ix2 r k) (ix2 ⟨3200 * t.val + r.val, he⟩ k) rfl rfl)
    (fun k => endRows_apply V c t (ix2 r k) (ix2 ⟨3200 * t.val + r.val, he⟩ k) rfl rfl)
    (fun k => diffRows_apply V c t (ix2 r k) (ix2 ⟨3200 * t.val + r.val, he⟩ k) rfl rfl)
    (attrRows_apply V c t (ix2 r (0 : Fin 1)) (ix2 ⟨3200 * t.val + r.val, he⟩ (0 : Fin 1)) rfl rfl)
    (startWeights_eq V c t) (endWeights_eq V c t) (attrWeights_eq V c t) (diffWeights_eq V c t) (bias_eq V c t)

/-- What point `t` writes back is block `t` of the score of the arrays as the region finds them. -/
theorem flushed_eq (c : Dev nD) (t : Fin cfg1.N) :
    (dat1 (F := Ideal) V c).flushed 9 t
      = ((cfg1.win 9).blk t).view.read (Elt Ideal) (Cert.Spec.score64 (V c main_v48) (V c main_v55) (V c main_v70) (V c main_arg3) (V c main_v71) (V c main_v72) (V c main_v73) (V c main_v74) (V c main_call1_v0)) := by
  show (cfg1.win 9).cut (grid1.coords t) ((dat1 (F := Ideal) V c).after 9 t) = _
  rw [after1_9]
  unfold out1_9
  rw [View.canon_unit_zero zeroOff]
  simp only [View.ld_unit_zero (S := S3200x64) zeroOff, View.ld_unit_zero (S := S3200x3) zeroOff,
    View.ld_unit_zero (S := S3200x1) zeroOff, View.ld_unit_zero (S := S64x64) zeroOff,
    View.ld_unit_zero (S := S1x64) zeroOff, View.ld_unit_zero (S := S3x64) zeroOff]
  funext y
  exact point_block V c t y

/-! ## The blocks cover the array -/

/-- An index of the array is in point `t`'s block iff each coordinate is in the block's range on its axis. -/
theorem mem_blk (t : Fin cfg1.N) (i : S800000x64.Idx) :
    i ∈ ((cfg1.win 9).blk t).view.set ↔ ∀ a : Fin 2, win1_9.index t a * S3200x64.size a ≤ (i a).val ∧ (i a).val < win1_9.index t a * S3200x64.size a + S3200x64.size a := by
  show i ∈ ((View.whole main_v75).slice (win1_9.rect t)).set ↔ _
  rw [View.set_slice_whole, Rect.mem_set_unit]
  exact Iff.rfl

/-- Every index is in the block of the point its row falls to: row `e` belongs to point `e / 3200`; the columns
    are whole. -/
theorem cover (i : S800000x64.Idx) :
    ∃ t : Fin cfg1.N, (cfg1.win 9).flush t = true ∧ i ∈ ((cfg1.win 9).blk t).view.set := by
  have hi0 : (i 0).val < 800000 := (i 0).isLt
  have hi1 : (i 1).val < 64 := (i 1).isLt
  have hN : cfg1.N = 250 := N_1
  refine ⟨⟨(i 0).val / 3200, by rw [hN]; omega⟩, flush1_9 _, ?_⟩
  rw [mem_blk]
  have e0 := (idx_facts ⟨(i 0).val / 3200, by rw [hN]; omega⟩).2.2.2.2.2.2.2.2.2.2.2.2.2.2.2.2.2.2.1
  have e1 := (idx_facts ⟨(i 0).val / 3200, by rw [hN]; omega⟩).2.2.2.2.2.2.2.2.2.2.2.2.2.2.2.2.2.2.2
  intro a
  match a with
  | ⟨0, _⟩ =>
    show win1_9.index ⟨(i 0).val / 3200, _⟩ (0 : Fin 2) * 3200 ≤ (i 0).val ∧ (i 0).val < win1_9.index ⟨(i 0).val / 3200, _⟩ (0 : Fin 2) * 3200 + 3200
    rw [e0]
    show (i 0).val / 3200 * 3200 ≤ (i 0).val ∧ (i 0).val < (i 0).val / 3200 * 3200 + 3200
    omega
  | ⟨1, _⟩ =>
    show win1_9.index ⟨(i 0).val / 3200, _⟩ (1 : Fin 2) * 64 ≤ (i 1).val ∧ (i 1).val < win1_9.index ⟨(i 0).val / 3200, _⟩ (1 : Fin 2) * 64 + 64
    rw [e1]
    omega

/-! ## The array after the region -/

/-- After the region the output array holds the score of every edge in every channel. -/
theorem arr1 (c : Dev nD) :
    (dat1 (F := Ideal) V c).arrAt 9 cfg1.N
      = Cert.Spec.score64 (V c main_v48) (V c main_v55) (V c main_v70) (V c main_arg3) (V c main_v71) (V c main_v72) (V c main_v73) (V c main_v74) (V c main_call1_v0) :=
  (dat1 (F := Ideal) V c).arrAt_eq_of_cover 9 (Cert.Spec.score64 (V c main_v48) (V c main_v55) (V c main_v70) (V c main_arg3) (V c main_v71) (V c main_v72) (V c main_v73) (V c main_v74) (V c main_call1_v0))
    (fun t _ => flushed_eq V c t) cover

end Cert.KernelIdeal.Region1

end
-- ==== Proof.Bridge.lean ====
import proofs.«425315_j42391327212259_4_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.Spec

open Idealize.ShloMosaic Idealize.ShloMosaic.ValueIdx
open Cert.KernelIdeal Cert.KernelIdeal.Facts₀

variable [hK : Cert.KernelIdeal.Facts] [hR : Cert.ReferenceIdeal.Facts]

/-- A sum over `kin + kin + 1 + 3` consecutive indices is the sum of its four consecutive ranges. -/
theorem sum_fin_split4 {M : Type*} [AddCommMonoid M] (kin n : ℕ) (hn : n = kin + kin + 1 + 3) (f : Fin n → M) :
    ∑ k, f k = ((∑ k : Fin kin, f ⟨k.val, by omega⟩ + ∑ k : Fin kin, f ⟨kin + k.val, by omega⟩)
        + f ⟨kin + kin, by omega⟩) + ∑ k : Fin 3, f ⟨kin + kin + 1 + k.val, by omega⟩ := by
  subst hn
  rw [Fin.sum_univ_add, Fin.sum_univ_add, Fin.sum_univ_add, Fin.sum_univ_one]
  rfl

/-- The word `0x3F800000` is the number one. -/
theorem ofBits_one_f32 : Ideal.ofBits .f32 0x3F800000#32 = 1 := by
  simp [Ideal.ofBits, Ideal.ieee, -EReal.coe_mul]; norm_num

section Cat
variable {α : Type} {E kin n : ℕ}

/-- Four operands side by side along the columns, read in the first operand's columns. -/
theorem cat4_apply_a (A B : (⟨2, ![E, kin]⟩ : Shape).Idx → α) (C : (⟨2, ![E, 1]⟩ : Shape).Idx → α)
    (D : (⟨2, ![E, 3]⟩ : Shape).Idx → α)
    (h : Shape.Concatenates [⟨2, ![E, kin]⟩, ⟨2, ![E, kin]⟩, ⟨2, ![E, 1]⟩, ⟨2, ![E, 3]⟩] ⟨2, ![E, n]⟩ 1)
    (e : Fin E) (c : Fin n) (k : Fin kin) (hc : c.val = k.val) :
    concatenate ⟨2, ![E, n]⟩ 1 [⟨⟨2, ![E, kin]⟩, A⟩, ⟨⟨2, ![E, kin]⟩, B⟩, ⟨⟨2, ![E, 1]⟩, C⟩, ⟨⟨2, ![E, 3]⟩, D⟩] h (ix2 e c)
      = A (ix2 e k) := by
  refine concatenate_apply_piece (t := ⟨2, ![E, n]⟩) 1 [⟨⟨2, ![E, kin]⟩, A⟩, ⟨⟨2, ![E, kin]⟩, B⟩, ⟨⟨2, ![E, 1]⟩, C⟩, ⟨⟨2, ![E, 3]⟩, D⟩] h (ix2 e c) 0 (by show (0 : ℕ) < 4; omega) _ A rfl rfl 0 ?_ (ix2 e k) ?_ ?_
  · first | rfl | (simp <;> omega)
  · intro b hb
    match b, hb with
    | ⟨0, _⟩, _ => rfl
    | ⟨1, _⟩, hb => exact absurd (Fin.ext rfl) hb
  · show 0 + k.val = c.val
    omega

/-- … in the second operand's columns. -/
theorem cat4_apply_b (A B : (⟨2, ![E, kin]⟩ : Shape).Idx → α) (C : (⟨2, ![E, 1]⟩ : Shape).Idx → α)
    (D : (⟨2, ![E, 3]⟩ : Shape).Idx → α)
    (h : Shape.Concatenates [⟨2, ![E, kin]⟩, ⟨2, ![E, kin]⟩, ⟨2, ![E, 1]⟩, ⟨2, ![E, 3]⟩] ⟨2, ![E, n]⟩ 1)
    (e : Fin E) (c : Fin n) (k : Fin kin) (hc : c.val = kin + k.val) :
    concatenate ⟨2, ![E, n]⟩ 1 [⟨⟨2, ![E, kin]⟩, A⟩, ⟨⟨2, ![E, kin]⟩, B⟩, ⟨⟨2, ![E, 1]⟩, C⟩, ⟨⟨2, ![E, 3]⟩, D⟩] h (ix2 e c)
      = B (ix2 e k) := by
  refine concatenate_apply_piece (t := ⟨2, ![E, n]⟩) 1 [⟨⟨2, ![E, kin]⟩, A⟩, ⟨⟨2, ![E, kin]⟩, B⟩, ⟨⟨2, ![E, 1]⟩, C⟩, ⟨⟨2, ![E, 3]⟩, D⟩] h (ix2 e c) 1 (by show (1 : ℕ) < 4; omega) _ B rfl rfl kin ?_ (ix2 e k) ?_ ?_
  · first | rfl | (simp <;> omega)
  · intro b hb
    match b, hb with
    | ⟨0, _⟩, _ => rfl
    | ⟨1, _⟩, hb => exact absurd (Fin.ext rfl) hb
  · show kin + k.val = c.val
    omega

/-- … in the third operand's one column. -/
theorem cat4_apply_c (A B : (⟨2, ![E, kin]⟩ : Shape).Idx → α) (C : (⟨2, ![E, 1]⟩ : Shape).Idx → α)
    (D : (⟨2, ![E, 3]⟩ : Shape).Idx → α)
    (h : Shape.Concatenates [⟨2, ![E, kin]⟩, ⟨2, ![E, kin]⟩, ⟨2, ![E, 1]⟩, ⟨2, ![E, 3]⟩] ⟨2, ![E, n]⟩ 1)
    (e : Fin E) (c : Fin n) (hc : c.val = kin + kin) :
    concatenate ⟨2, ![E, n]⟩ 1 [⟨⟨2, ![E, kin]⟩, A⟩, ⟨⟨2, ![E, kin]⟩, B⟩, ⟨⟨2, ![E, 1]⟩, C⟩, ⟨⟨2, ![E, 3]⟩, D⟩] h (ix2 e c)
      = C (ix2 e (0 : Fin 1)) := by
  refine concatenate_apply_piece (t := ⟨2, ![E, n]⟩) 1 [⟨⟨2, ![E, kin]⟩, A⟩, ⟨⟨2, ![E, kin]⟩, B⟩, ⟨⟨2, ![E, 1]⟩, C⟩, ⟨⟨2, ![E, 3]⟩, D⟩] h (ix2 e c) 2 (by show (2 : ℕ) < 4; omega) _ C rfl rfl (kin + kin) ?_ (ix2 e (0 : Fin 1)) ?_ ?_
  · first | rfl | (simp <;> omega)
  · intro b hb
    match b, hb with
    | ⟨0, _⟩, _ => rfl
    | ⟨1, _⟩, hb => exact absurd (Fin.ext rfl) hb
  · show kin + kin + 0 = c.val
    omega

/-- … in the fourth operand's three columns. -/
theorem cat4_apply_d (A B : (⟨2, ![E, kin]⟩ : Shape).Idx → α) (C : (⟨2, ![E, 1]⟩ : Shape).Idx → α)
    (D : (⟨2, ![E, 3]⟩ : Shape).Idx → α)
    (h : Shape.Concatenates [⟨2, ![E, kin]⟩, ⟨2, ![E, kin]⟩, ⟨2, ![E, 1]⟩, ⟨2, ![E, 3]⟩] ⟨2, ![E, n]⟩ 1)
    (e : Fin E) (c : Fin n) (k : Fin 3) (hc : c.val = kin + kin + 1 + k.val) :
    concatenate ⟨2, ![E, n]⟩ 1 [⟨⟨2, ![E, kin]⟩, A⟩, ⟨⟨2, ![E, kin]⟩, B⟩, ⟨⟨2, ![E, 1]⟩, C⟩, ⟨⟨2, ![E, 3]⟩, D⟩] h (ix2 e c)
      = D (ix2 e k) := by
  refine concatenate_apply_piece (t := ⟨2, ![E, n]⟩) 1 [⟨⟨2, ![E, kin]⟩, A⟩, ⟨⟨2, ![E, kin]⟩, B⟩, ⟨⟨2, ![E, 1]⟩, C⟩, ⟨⟨2, ![E, 3]⟩, D⟩] h (ix2 e c) 3 (by show (3 : ℕ) < 4; omega) _ D rfl rfl (kin + kin + 1) ?_ (ix2 e k) ?_ ?_
  · first | rfl | (simp <;> omega)
  · intro b hb
    match b, hb with
    | ⟨0, _⟩, _ => rfl
    | ⟨1, _⟩, hb => exact absurd (Fin.ext rfl) hb
  · show kin + kin + 1 + k.val = c.val
    omega

end Cat

section Core
variable {E kin n m : ℕ}

/-- The contraction of the four operands laid side by side with all of `W` is the sum of the four groups' contractions
    with `W`'s four groups of rows: the sum over the columns splits into its four consecutive ranges, and in each
    range the concatenation reads its operand and the row of `W` is the row of the group's slice. -/
theorem cat_dot_eq (hn : n = kin + kin + 1 + 3) (o2 o3 : ℕ) (h2 : o2 = kin + kin) (h3 : o3 = kin + kin + 1)
    (hs hd : (⟨2, ![E, kin]⟩ : Shape).Idx → EReal) (ea : (⟨2, ![E, 1]⟩ : Shape).Idx → EReal)
    (pd : (⟨2, ![E, 3]⟩ : Shape).Idx → EReal) (W : (⟨2, ![n, m]⟩ : Shape).Idx → EReal)
    (hcat : Shape.Concatenates [⟨2, ![E, kin]⟩, ⟨2, ![E, kin]⟩, ⟨2, ![E, 1]⟩, ⟨2, ![E, 3]⟩] ⟨2, ![E, n]⟩ 1)
    (ha : (⟨2, ![n, m]⟩ : Shape).Slices ![0, 0] ⟨2, ![kin, m]⟩)
    (hb : (⟨2, ![n, m]⟩ : Shape).Slices ![kin, 0] ⟨2, ![kin, m]⟩)
    (hc : (⟨2, ![n, m]⟩ : Shape).Slices ![o2, 0] ⟨2, ![1, m]⟩)
    (hd' : (⟨2, ![n, m]⟩ : Shape).Slices ![o3, 0] ⟨2, ![3, m]⟩)
    (e : Fin E) (j : Fin m) :
    (∑ c : Fin n, concatenate ⟨2, ![E, n]⟩ 1
        [⟨⟨2, ![E, kin]⟩, hs⟩, ⟨⟨2, ![E, kin]⟩, hd⟩, ⟨⟨2, ![E, 1]⟩, ea⟩, ⟨⟨2, ![E, 3]⟩, pd⟩] hcat (ix2 e c) * W (ix2 c j))
      = (((∑ k : Fin kin, hs (ix2 e k) * extractStridedSlice ⟨2, ![kin, m]⟩ ![0, 0] W ha (ix2 k j))
          + (∑ k : Fin kin, hd (ix2 e k) * extractStridedSlice ⟨2, ![kin, m]⟩ ![kin, 0] W hb (ix2 k j)))
          + ea (ix2 e (0 : Fin 1)) * extractStridedSlice ⟨2, ![1, m]⟩ ![o2, 0] W hc (ix2 (0 : Fin 1) j))
          + (∑ k : Fin 3, pd (ix2 e k) * extractStridedSlice ⟨2, ![3, m]⟩ ![o3, 0] W hd' (ix2 k j)) := by
  subst h2 h3
  rw [sum_fin_split4 kin n hn]
  refine congrArg₂ (· + ·) (congrArg₂ (· + ·) (congrArg₂ (· + ·) ?_ ?_) ?_) ?_
  · refine Finset.sum_congr rfl fun k _ => ?_
    exact congrArg₂ (· * ·) (cat4_apply_a hs hd ea pd hcat e ⟨k.val, by omega⟩ k rfl)
      (slice2_axis0_apply 0 W ha k j ⟨k.val, by omega⟩ (Nat.zero_add _).symm).symm
  · refine Finset.sum_congr rfl fun k _ => ?_
    exact congrArg₂ (· * ·) (cat4_apply_b hs hd ea pd hcat e ⟨kin + k.val, by omega⟩ k rfl)
      (slice2_axis0_apply kin W hb k j ⟨kin + k.val, by omega⟩ rfl).symm
  · exact congrArg₂ (· * ·) (cat4_apply_c hs hd ea pd hcat e ⟨kin + kin, by omega⟩ rfl)
      (slice2_axis0_apply (kin + kin) W hc (0 : Fin 1) j ⟨kin + kin, by omega⟩ rfl).symm
  · refine Finset.sum_congr rfl fun k _ => ?_
    exact congrArg₂ (· * ·) (cat4_apply_d hs hd ea pd hcat e ⟨kin + kin + 1 + k.val, by omega⟩ k rfl)
      (slice2_axis0_apply (kin + kin + 1) W hd' k j ⟨kin + kin + 1 + k.val, by omega⟩ rfl).symm

end Core

/-- `1 / (1 + e^(−z))` in the host's four operations is the logistic function at every element. -/
theorem hostSigmoid_apply (z : FVec Ideal S800000x64 .f32) (i : S800000x64.Idx) :
    hostSigmoid (F := Ideal) z i = Ideal.logistic (z i) := by
  show Ideal.div (Ideal.ofBits .f32 0x3F800000#32) (Ideal.ofBits .f32 0x3F800000#32 + Ideal.exp (-(z i)))
    = Ideal.div 1 (1 + Ideal.exp (-(z i)))
  rw [ofBits_one_f32]

/-- The bias broadcast to one row and then to every edge's row reads the bias at the channel. -/
theorem bcast_bias_apply (b : FVec Ideal S64 .f32) (h2 : S64.BroadcastsInDim S1x64 ![1])
    (h3 : S1x64.BroadcastsInDim S800000x64 ![0, 1]) (e : Fin 800000) (j : Fin 64) :
    broadcastInDim S800000x64 ![0, 1] h3 (broadcastInDim S1x64 ![1] h2 b) (ix2 e j) = b (ix1 j) := by
  rw [broadcastInDim_apply _ h3 _ (ix2 e j) (ix2 (0 : Fin 1) j) (fun a => match a with | ⟨0, _⟩ => rfl | ⟨1, _⟩ => rfl)]
  exact broadcastInDim_apply _ h2 b (ix2 (0 : Fin 1) j) (ix1 j) (fun a => match a with | ⟨0, _⟩ => rfl)

/-- The group-by-group score of the first layer at edge `e` and channel `j`. -/
theorem score5_apply (hs hd : FVec Ideal S800000x5 .f32) (pd : FVec Ideal S800000x3 .f32) (ea : FVec Ideal S800000x1 .f32)
    (wa wb : FVec Ideal S5x64 .f32) (wc : FVec Ideal S1x64 .f32) (wd : FVec Ideal S3x64 .f32) (b : FVec Ideal S1x64 .f32)
    (e : Fin 800000) (j : Fin 64) :
    score5 hs hd pd ea wa wb wc wd b (ix2 e j)
      = Ideal.logistic
        (((((∑ k : Fin 5, hs (ix2 e k) * wa (ix2 k j)) + (∑ k : Fin 5, hd (ix2 e k) * wb (ix2 k j)))
            + ea (ix2 e (0 : Fin 1)) * wc (ix2 (0 : Fin 1) j))
          + (∑ k : Fin 3, pd (ix2 e k) * wd (ix2 k j)))
        + b (ix2 (0 : Fin 1) j)) := rfl

/-- The group-by-group score of a later layer at edge `e` and channel `j`. -/
theorem score64_apply (hs hd : FVec Ideal S800000x64 .f32) (pd : FVec Ideal S800000x3 .f32) (ea : FVec Ideal S800000x1 .f32)
    (wa wb : FVec Ideal S64x64 .f32) (wc : FVec Ideal S1x64 .f32) (wd : FVec Ideal S3x64 .f32) (b : FVec Ideal S1x64 .f32)
    (e : Fin 800000) (j : Fin 64) :
    score64 hs hd pd ea wa wb wc wd b (ix2 e j)
      = Ideal.logistic
        (((((∑ k : Fin 64, hs (ix2 e k) * wa (ix2 k j)) + (∑ k : Fin 64, hd (ix2 e k) * wb (ix2 k j)))
            + ea (ix2 e (0 : Fin 1)) * wc (ix2 (0 : Fin 1) j))
          + (∑ k : Fin 3, pd (ix2 e k) * wd (ix2 k j)))
        + b (ix2 (0 : Fin 1) j)) := rfl

/-- The 14-column contraction read at an index: rows times columns, no batch axis. -/
theorem dot14_apply (A : FVec Ideal Cert.ReferenceIdeal.S800000x14 .f32) (W : FVec Ideal S14x64 .f32) (e : Fin 800000) (j : Fin 64) :
    Host.dotGeneral Cert.ReferenceIdeal.dot_S800000x14_S14x64_S800000x64_1_0_0_1_n_n none A W (ix2 e j)
      = ∑ c : Fin 14, A (ix2 e c) * W (ix2 c j) :=
  StackMember.dotGeneral_plain_apply (m := 800000) (n := 64) (k := 14) none A W e j

/-- The 132-column contraction read at an index. -/
theorem dot132_apply (A : FVec Ideal Cert.ReferenceIdeal.S800000x132 .f32) (W : FVec Ideal S132x64 .f32) (e : Fin 800000) (j : Fin 64) :
    Host.dotGeneral Cert.ReferenceIdeal.dot_S800000x132_S132x64_S800000x64_1_0_0_1_n_n none A W (ix2 e j)
      = ∑ c : Fin 132, A (ix2 e c) * W (ix2 c j) :=
  StackMember.dotGeneral_plain_apply (m := 800000) (n := 64) (k := 132) none A W e j

/-- The first layer: the score spelt group by group is the score by one contraction of the operands side by side. -/
theorem layer5_eq (x : FVec Ideal S50000x5 .f32) (p : FVec Ideal S50000x3 .f32) (ei : IVec S2x800000 32)
    (ea : FVec Ideal S800000x1 .f32) (W : FVec Ideal S14x64 .f32) (b : FVec Ideal S64 .f32) :
    layerK5 x p ei ea W b = layerR5 (F := Ideal) x p ei ea W b := by
  funext i
  obtain ⟨e, j, rfl⟩ : ∃ (e : Fin 800000) (j : Fin 64), i = ix2 e j := ⟨i 0, i 1, eq_ix2 i⟩
  unfold layerK5 layerR5
  rw [extf_apply, score5_apply, hostSigmoid_apply]
  refine congrArg Ideal.logistic ?_
  rw [addf_apply]
  refine congrArg₂ (· + ·) ?_ ?_
  · rw [dot14_apply]
    exact (cat_dot_eq (E := 800000) (kin := 5) (n := 14) (m := 64) rfl 10 11 rfl rfl _ _ _ _ _ _ _ _ _ _ e j).symm
  · exact (shapeCast_a_1a_apply b _ 0 j).trans (bcast_bias_apply b _ _ e j).symm

/-- A later layer, the same way. -/
theorem layer64_eq (h : FVec Ideal S50000x64 .f32) (p : FVec Ideal S50000x3 .f32) (ei : IVec S2x800000 32)
    (ea : FVec Ideal S800000x1 .f32) (W : FVec Ideal S132x64 .f32) (b : FVec Ideal S64 .f32) :
    layerK64 h p ei ea W b = layerR64 (F := Ideal) h p ei ea W b := by
  funext i
  obtain ⟨e, j, rfl⟩ : ∃ (e : Fin 800000) (j : Fin 64), i = ix2 e j := ⟨i 0, i 1, eq_ix2 i⟩
  unfold layerK64 layerR64
  rw [extf_apply, score64_apply, hostSigmoid_apply]
  refine congrArg Ideal.logistic ?_
  rw [addf_apply]
  refine congrArg₂ (· + ·) ?_ ?_
  · rw [dot132_apply]
    exact (cat_dot_eq (E := 800000) (kin := 64) (n := 132) (m := 64) rfl 128 129 rfl rfl _ _ _ _ _ _ _ _ _ _ e j).symm
  · exact (shapeCast_a_1a_apply b _ 0 j).trans (bcast_bias_apply b _ _ e j).symm

/-- Three layers spelt group by group are three layers spelt by one contraction each. -/
theorem nodes_eq (x : FVec Ideal S50000x5 .f32) (p : FVec Ideal S50000x3 .f32) (ei : IVec S2x800000 32) (ea : FVec Ideal S800000x1 .f32)
    (W0 : FVec Ideal S14x64 .f32) (b0 : FVec Ideal S64 .f32) (W1 : FVec Ideal S132x64 .f32) (b1 : FVec Ideal S64 .f32)
    (W2 : FVec Ideal S132x64 .f32) (b2 : FVec Ideal S64 .f32) :
    nodesK x p ei ea W0 b0 W1 b1 W2 b2 = nodesR (F := Ideal) x p ei ea W0 b0 W1 b1 W2 b2 := by
  unfold nodesK nodesR
  rw [layer5_eq, layer64_eq, layer64_eq]

end Cert.Spec

end
-- ==== Proof.RefValue.lean ====
import proofs.«425315_j42391327212259_4_alg».proof.Proof.Spec
import proofs.«425315_j42391327212259_4_alg».proof.Proof.Gen.ReferenceIdeal.Run
import proofs.«425315_j42391327212259_4_alg».proof.Proof.Gen.KernelIdeal

/-!
# The one-contraction program's run, its results named

Its run ends with the pooled rows and the prediction at the composed term of its host operations; that term is, layer
for layer, the specification's: the same gathers, one concatenation and one contraction per layer, the sigmoid in four
host operations, the sum into the end nodes, the pool.
-/

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- Every weakly fair execution terminates with the prediction and the pooled rows at the specification's functions of
    the arguments (each layer's score by one contraction), the arguments unchanged. -/
theorem run_spec : θ_run defs (onTc (τ := τ) (main (F := Ideal))) ⟨m, fun _ => 0, ρ⟩ fun r => ∀ c : Dev nD,
      r.2.mem ((c.tc : Thread nD τ).loc main_v148)
        = Cert.Spec.predict (F := Ideal) (Cert.Spec.pool (m ((c.tc : Thread nD τ).loc main_arg4)) (Cert.Spec.nodesR (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg11)) (m ((c.tc : Thread nD τ).loc main_arg12))
      ∧ r.2.mem ((c.tc : Thread nD τ).loc main_v144) = Cert.Spec.pool (F := Ideal) (m ((c.tc : Thread nD τ).loc main_arg4)) (Cert.Spec.nodesR (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans rfl, (h c).2.1.trans rfl, (h c).2.2⟩)
    (Cert.ReferenceIdeal.Value.run (F := Ideal) m ρ)

end Cert.ReferenceIdeal.RefValue

end
-- ==== Proof.lean ====
/-
  The blocked program and the one-contraction program compute one function on the extended reals.

  Both run three message-passing layers over 800000 edges and pool the node rows per graph. Around a layer's score
  the two texts are the same host operations: the rows of both endpoints are gathered, the scores are summed into
  each edge's end node, and after the third layer the rows are averaged per graph and multiplied into a last column.
  They differ in the score alone. The blocked program cuts the weight matrix into the rows that meet the start
  node's features, the end node's, the edge attribute and the coordinate difference, and on each block of 3200 edges
  adds the four partial products and the bias before the sigmoid; a narrow float stores the score, which on the
  extended reals is the identity. The other program lays the four operands side by side and contracts once with the
  whole matrix. A sum over 2·kin + 1 + 3 columns is the sum of its four consecutive ranges, so the two scores are
  equal index by index, with no finiteness needed; the sigmoid is one function in both spellings.

  The pieces: the regions' blocks read as whole arrays (Region0–2), each boundary of the blocked program's run as a
  function of the arguments (KVal, over the launch called with the results in its post, KRun), the other program's
  run named (RefValue), and the equality of the two layer spellings (Bridge), all over the functions of Spec.
-/
import proofs.«425315_j42391327212259_4_alg».proof.Defs
import proofs.«425315_j42391327212259_4_alg».proof.Proof.Gen.Kernel
import proofs.«425315_j42391327212259_4_alg».proof.Proof.Gen.Kernel.Skeleton
import proofs.«425315_j42391327212259_4_alg».proof.Proof.Gen.Kernel.Launch
import proofs.«425315_j42391327212259_4_alg».proof.Proof.Gen.Kernel.Points
import proofs.«425315_j42391327212259_4_alg».proof.Proof.Gen.Kernel.Frame
import proofs.«425315_j42391327212259_4_alg».proof.Proof.Gen.KernelIdeal
import proofs.«425315_j42391327212259_4_alg».proof.Proof.Gen.KernelIdeal.Skeleton
import proofs.«425315_j42391327212259_4_alg».proof.Proof.Gen.KernelIdeal.Launch
import proofs.«425315_j42391327212259_4_alg».proof.Proof.Gen.KernelIdeal.Points
import proofs.«425315_j42391327212259_4_alg».proof.Proof.Gen.KernelIdeal.Frame
import proofs.«425315_j42391327212259_4_alg».proof.Proof.Gen.ReferenceIdeal
import proofs.«425315_j42391327212259_4_alg».proof.Proof.Gen.ReferenceIdeal.Run
import proofs.«425315_j42391327212259_4_alg».proof.Proof.Gen.Pre_finite_inputs
import proofs.«425315_j42391327212259_4_alg».proof.Proof.Spec
import proofs.«425315_j42391327212259_4_alg».proof.Proof.KRun
import proofs.«425315_j42391327212259_4_alg».proof.Proof.RegionClaims
import proofs.«425315_j42391327212259_4_alg».proof.Proof.Region0
import proofs.«425315_j42391327212259_4_alg».proof.Proof.Region1
import proofs.«425315_j42391327212259_4_alg».proof.Proof.Region2
import proofs.«425315_j42391327212259_4_alg».proof.Proof.KVal
import proofs.«425315_j42391327212259_4_alg».proof.Proof.Bridge
import proofs.«425315_j42391327212259_4_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- The blocked program at the extended reals runs and keeps its arguments. -/
theorem frame_kernelIdeal : Cert.frame_KernelIdeal := fun m ρ _ => Cert.KernelIdeal.Gen.frame m ρ

/-- The one-contraction program runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- The three regions' blocks, read as whole arrays. -/
theorem regions : Cert.KernelIdeal.Arr0 ∧ Cert.KernelIdeal.Arr1 ∧ Cert.KernelIdeal.Arr2 :=
  ⟨fun V c => Cert.KernelIdeal.Region0.arr0 V c, fun V c => Cert.KernelIdeal.Region1.arr1 V c, fun V c => Cert.KernelIdeal.Region2.arr2 V c⟩

set_option maxHeartbeats 4000000 in
/-- From memories that agree on the arguments both programs end with the prediction and the pooled rows at ONE value:
    the pool of the node rows after three layers, the layers' two spellings being equal (`Cert.Spec.nodes_eq`). -/
theorem algebraic : Cert.algebraic_KernelIdeal_ReferenceIdeal := by
  intro m ρ m' ρ' _ hagree
  refine ⟨fun c => Cert.Spec.predict (F := Ideal) (Cert.Spec.pool (F := Ideal) (m ((c.tc : Thread Cert.KernelIdeal.nD Cert.KernelIdeal.τ).loc Cert.KernelIdeal.main_arg4)) (Cert.Spec.nodesK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => (Cert.Spec.pool (F := Ideal) (m ((c.tc : Thread Cert.KernelIdeal.nD Cert.KernelIdeal.τ).loc Cert.KernelIdeal.main_arg4)) (Cert.Spec.nodesK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))), ?_, ?_⟩
  · refine (θ_run Cert.KernelIdeal.defs _ _).mono (fun r h c => ⟨(h c).1.trans ?_, (h c).2.1.trans ?_, (h c).2.2⟩)
      (Cert.KernelIdeal.KRun.run_results (F := Ideal) m ρ)
    · exact Cert.KernelIdeal.KVal.W10_v133 m ρ regions.1 regions.2.1 regions.2.2 c
    · exact Cert.KernelIdeal.KVal.W10_v129 m ρ regions.1 regions.2.1 regions.2.2 c
  · refine (θ_run Cert.ReferenceIdeal.defs _ _).mono (fun r h c => ⟨(h c).1.trans ?_, (h c).2.1.trans ?_, (h c).2.2⟩)
      (Cert.ReferenceIdeal.RefValue.run_spec m' ρ')
    all_goals
      obtain ⟨e0, e1, e2, e3, e4, e5, e6, e7, e8, e9, e10, e11, e12⟩ := hagree c
      simp only [e0, e1, e2, e3, e4, e5, e6, e7, e8, e9, e10, e11, e12]
      rw [Cert.Spec.nodes_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
